-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x16x64 : Shape := ⟨4, ![4, 4096, 16, 64]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel

variable [Facts]

def fn {F : FTy → Type} [FloatOps F] (main_arg0 : FVec F S4x4096x16x64 .f32) (main_arg1 : FVec F S4x4096x16x64 .f32) (main_arg2 : FVec F S4x4096x16x64 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S4x4096x16x64 .f32 := Host.absf main_arg2
  let main_cst_2 : FVec F S_ .f32 := constant S_ .f32 0x7F800000#32
  let main_v10 : FVec F S4x4096x16x64 .f32 := broadcastInDim S4x4096x16x64 ![] bcast_S_S4x4096x16x64 main_cst_2
  let main_v11 : IVec S4x4096x16x64 1 := cmpf .olt main_v9 main_v10
  let main_c_3 : IVec S_ 1 := constantI S_ 1 1#1
  let main_v12 : IVec S_ 1 := (fun x v => Host.reduce IntOp.andi x v reducesTo_S4x4096x16x64_S_d0_1_2_3 h_S_) main_v11 main_c_3
  let main_v13 : IVec S_ 1 := andi main_v8 main_v12
  main_v13
-- ==== Kernel.lean ====
abbrev S4x4096x16x64 : Shape := ⟨4, ![4, 4096, 16, 64]⟩
abbrev S16384x16x64 : Shape := ⟨3, ![16384, 16, 64]⟩
abbrev S256x16x64 : Shape := ⟨3, ![256, 16, 64]⟩
abbrev S256x8x64 : Shape := ⟨3, ![256, 8, 64]⟩
abbrev S256x8x8 : Shape := ⟨3, ![256, 8, 8]⟩
abbrev S256x8 : Shape := ⟨2, ![256, 8]⟩
abbrev S256x8x1 : Shape := ⟨3, ![256, 8, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S16384x16x64, .f32⟩
  | .hbm, ⟨4, _⟩ => ⟨S16384x16x64, .f32⟩
  | .hbm, ⟨5, _⟩ => ⟨S16384x16x64, .f32⟩
  | .hbm, ⟨6, _⟩ => ⟨S16384x16x64, .f32⟩
  | .hbm, ⟨7, _⟩ => ⟨S4x4096x16x64, .f32⟩
  | .local _ .vmem, ⟨0, _⟩ => ⟨S256x16x64, .f32⟩
  | .local _ .vmem, ⟨1, _⟩ => ⟨S256x16x64, .f32⟩
  | .local _ .vmem, ⟨2, _⟩ => ⟨S256x16x64, .f32⟩
  | .local _ .vmem, ⟨3, _⟩ => ⟨S256x16x64, .f32⟩
  | .local _ .vmem, ⟨4, _⟩ => ⟨S256x16x64, .f32⟩
  | .local _ .vmem, ⟨5, _⟩ => ⟨S256x16x64, .f32⟩
  | .local _ .vmem, ⟨6, _⟩ => ⟨S256x16x64, .f32⟩
  | .local _ .vmem, ⟨7, _⟩ => ⟨S256x16x64, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x16x64_S16384x16x64 : S4x4096x16x64.ShapeCasts S16384x16x64
  inb_S256x16x64_S256x16x64_0_0_0 : ∀ a, (![0, 0, 0] : Fin 3 → Nat) a + S256x16x64.size a ≤ S256x16x64.size a
  h_S256x16x64 : 0 < S256x16x64.numel
  shapeCasts_S256x16x64_S256x16x64 : S256x16x64.ShapeCasts S256x16x64
  slices_S256x16x64_o0_0_0_S256x8x64 : S256x16x64.Slices ![0, 0, 0] S256x8x64
  bitsLt_bf16_f32 : FTy.bits .bf16 < FTy.bits .f32
  reduces_S256x8x8_S256x8 : S256x8x8.Reduces [2] S256x8
  shapeCasts_S256x8_S256x8x1 : S256x8.ShapeCasts S256x8x1
  broadcasts_S256x8x1_S256x8x8 : S256x8x1.Broadcasts S256x8x8
  inb_S256x16x64_S256x8x64_0_0_0 : ∀ a, (![0, 0, 0] : Fin 3 → Nat) a + S256x8x64.size a ≤ S256x16x64.size a
  h_S256x8x64 : 0 < S256x8x64.numel
  slices_S256x16x64_o0_8_0_S256x8x64 : S256x16x64.Slices ![0, 8, 0] S256x8x64
  inb_S256x16x64_S256x8x64_0_8_0 : ∀ a, (![0, 8, 0] : Fin 3 → Nat) a + S256x8x64.size a ≤ S256x16x64.size a
  shapeCasts_S16384x16x64_S4x4096x16x64 : S16384x16x64.ShapeCasts S4x4096x16x64
  dot_S256x8x64_S256x8x64_S256x8x8_2_2_1_1_0_0_wf : DotDims.WF S256x8x64 S256x8x64 S256x8x8 [2] [2] [1] [1] [0] [0]
  dot_S256x8x8_S256x8x64_S256x8x64_2_1_1_2_0_0_wf : DotDims.WF S256x8x8 S256x8x64 S256x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x64.size a ≤ S16384x16x64.size a
  hwx0_0 : ∀ i : grid0.Coords, EltTy.bits .f32 = 32 ∨ (Rect.block (s := S16384x16x64) S256x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x64.size a ≤ S16384x16x64.size a
  hwx0_1 : ∀ i : grid0.Coords, EltTy.bits .f32 = 32 ∨ (Rect.block (s := S16384x16x64) S256x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x64.size a ≤ S16384x16x64.size a
  hwx0_2 : ∀ i : grid0.Coords, EltTy.bits .f32 = 32 ∨ (Rect.block (s := S16384x16x64) S256x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16x64.size a ≤ S16384x16x64.size a
  hwx0_3 : ∀ i : grid0.Coords, EltTy.bits .f32 = 32 ∨ (Rect.block (s := S16384x16x64) S256x16x64.size (cc0_transform_3 i) (hinb0_3 i)).WholeWords (EltTy.packing .f32)

variable [Facts₀]

def dot_S256x8x64_S256x8x64_S256x8x8_2_2_1_1_0_0 : DotDims S256x8x64 S256x8x64 S256x8x8 where
  lhsContracting := [2]
  rhsContracting := [2]
  lhsNonContracting := [1]
  rhsNonContracting := [1]
  lhsBatch := [0]
  rhsBatch := [0]
  wf := dot_S256x8x64_S256x8x64_S256x8x8_2_2_1_1_0_0_wf
def dot_S256x8x8_S256x8x64_S256x8x64_2_1_1_2_0_0 : DotDims S256x8x8 S256x8x64 S256x8x64 where
  lhsContracting := [2]
  rhsContracting := [1]
  lhsNonContracting := [1]
  rhsNonContracting := [2]
  lhsBatch := [0]
  rhsBatch := [0]
  wf := dot_S256x8x8_S256x8x64_S256x8x64_2_1_1_2_0_0_wf

abbrev win0_0 : Pipeline.Window sig grid0 :=
  Pipeline.Window.ofSpec (Memref.whole main_v0) S256x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x16x64 : Shape := ⟨4, ![4, 4096, 16, 64]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4x4096x8x64 : Shape := ⟨4, ![4, 4096, 8, 64]⟩
abbrev S4x4096x8x8 : Shape := ⟨4, ![4, 4096, 8, 8]⟩
abbrev S4x4096x8 : Shape := ⟨3, ![4, 4096, 8]⟩
abbrev S4x4096x8x1 : Shape := ⟨4, ![4, 4096, 8, 1]⟩

abbrev nBuf : Space → Nat
  | .hbm => 176
  | .vmem => 0
  | .smem => 0
  | _ => 0

abbrev hbmTy0_0 (i : Nat) : BufTy := match i % 128 with
  | 0 => ⟨S4x4096x16x64, .f32⟩
  | 1 => ⟨S4x4096x16x64, .f32⟩
  | 2 => ⟨S4x4096x16x64, .f32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S1, .i32⟩
  | 14 => ⟨S_, .i32⟩
  | 15 => ⟨S4096x1, .i32⟩
  | 16 => ⟨S4096x1, .i1⟩
  | 17 => ⟨S1x1, .i32⟩
  | 18 => ⟨S4096x1, .i32⟩
  | 19 => ⟨S4096x1, .i1⟩
  | 20 => ⟨S4096x1, .i1⟩
  | 21 => ⟨S_, .i1⟩
  | 22 => ⟨S4096, .i1⟩
  | 23 => ⟨S4x4096x16x64, .f32⟩
  | 24 => ⟨S4x4096x16x64, .i1⟩
  | 25 => ⟨S_, .f32⟩
  | 26 => ⟨S4x4096x16x64, .f32⟩
  | 27 => ⟨S4x4096x16x64, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S1, .i32⟩
  | 37 => ⟨S_, .i32⟩
  | 38 => ⟨S4096x1, .i32⟩
  | 39 => ⟨S4096x1, .i1⟩
  | 40 => ⟨S1x1, .i32⟩
  | 41 => ⟨S4096x1, .i32⟩
  | 42 => ⟨S4096x1, .i1⟩
  | 43 => ⟨S4096x1, .i1⟩
  | 44 => ⟨S_, .i1⟩
  | 45 => ⟨S4096, .i1⟩
  | 46 => ⟨S4x4096x16x64, .f32⟩
  | 47 => ⟨S4x4096x16x64, .i1⟩
  | 48 => ⟨S_, .f32⟩
  | 49 => ⟨S4x4096x16x64, .f32⟩
  | 50 => ⟨S4x4096x16x64, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4x4096x16x64, .f32⟩
  | 70 => ⟨S4x4096x16x64, .i1⟩
  | 71 => ⟨S_, .f32⟩
  | 72 => ⟨S4x4096x16x64, .f32⟩
  | 73 => ⟨S4x4096x16x64, .f32⟩
  | 74 => ⟨S4x4096x8x64, .f32⟩
  | 75 => ⟨S4x4096x8x64, .f32⟩
  | 76 => ⟨S4x4096x8x64, .f32⟩
  | 77 => ⟨S4x4096x8x8, .f32⟩
  | 78 => ⟨S_, .f32⟩
  | 79 => ⟨S4x4096x8x8, .f32⟩
  | 80 => ⟨S4x4096x8x8, .f32⟩
  | 81 => ⟨S_, .f32⟩
  | 82 => ⟨S4x4096x8, .f32⟩
  | 83 => ⟨S_, .f32⟩
  | 84 => ⟨S4x4096x8, .f32⟩
  | 85 => ⟨S4x4096x8, .f32⟩
  | 86 => ⟨S4x4096x8x1, .f32⟩
  | 87 => ⟨S4x4096x8x8, .f32⟩
  | 88 => ⟨S4x4096x8x8, .f32⟩
  | 89 => ⟨S4x4096x8x8, .f32⟩
  | 90 => ⟨S_, .f32⟩
  | 91 => ⟨S4x4096x8, .f32⟩
  | 92 => ⟨S4x4096x8x1, .f32⟩
  | 93 => ⟨S4x4096x8x8, .f32⟩
  | 94 => ⟨S4x4096x8x8, .f32⟩
  | 95 => ⟨S_, .f32⟩
  | 96 => ⟨S4x4096x8x8, .i1⟩
  | 97 => ⟨S_, .f32⟩
  | 98 => ⟨S4x4096x8x8, .f32⟩
  | 99 => ⟨S4x4096x8x8, .f32⟩
  | 100 => ⟨S_, .f32⟩
  | 101 => ⟨S4x4096x8x8, .f32⟩
  | 102 => ⟨S4x4096x8x8, .i1⟩
  | 103 => ⟨S_, .f32⟩
  | 104 => ⟨S4x4096x8x8, .f32⟩
  | 105 => ⟨S4x4096x8x8, .f32⟩
  | 106 => ⟨S_, .f32⟩
  | 107 => ⟨S4x4096x8x8, .f32⟩
  | 108 => ⟨S4x4096x8x8, .i1⟩
  | 109 => ⟨S_, .f32⟩
  | 110 => ⟨S4x4096x8x8, .f32⟩
  | 111 => ⟨S4x4096x8x8, .f32⟩
  | 112 => ⟨S4x4096x8x64, .f32⟩
  | 113 => ⟨S4x4096x8x64, .f32⟩
  | 114 => ⟨S4x4096x8x64, .f32⟩
  | 115 => ⟨S4x4096x8x64, .f32⟩
  | 116 => ⟨S4x4096x8x8, .f32⟩
  | 117 => ⟨S_, .f32⟩
  | 118 => ⟨S4x4096x8x8, .f32⟩
  | 119 => ⟨S4x4096x8x8, .f32⟩
  | 120 => ⟨S_, .f32⟩
  | 121 => ⟨S4x4096x8, .f32⟩
  | 122 => ⟨S_, .f32⟩
  | 123 => ⟨S4x4096x8, .f32⟩
  | 124 => ⟨S4x4096x8, .f32⟩
  | 125 => ⟨S4x4096x8x1, .f32⟩
  | 126 => ⟨S4x4096x8x8, .f32⟩
  | 127 => ⟨S4x4096x8x8, .f32⟩
  | _ => ⟨S4x4096x16x64, .f32⟩

abbrev hbmTy0_1 (i : Nat) : BufTy := match i % 128 with
  | 0 => ⟨S4x4096x8x8, .f32⟩
  | 1 => ⟨S_, .f32⟩
  | 2 => ⟨S4x4096x8, .f32⟩
  | 3 => ⟨S4x4096x8x1, .f32⟩
  | 4 => ⟨S4x4096x8x8, .f32⟩
  | 5 => ⟨S4x4096x8x8, .f32⟩
  | 6 => ⟨S_, .f32⟩
  | 7 => ⟨S4x4096x8x8, .i1⟩
  | 8 => ⟨S_, .f32⟩
  | 9 => ⟨S4x4096x8x8, .f32⟩
  | 10 => ⟨S4x4096x8x8, .f32⟩
  | 11 => ⟨S_, .f32⟩
  | 12 => ⟨S4x4096x8x8, .f32⟩
  | 13 => ⟨S4x4096x8x8, .i1⟩
  | 14 => ⟨S_, .f32⟩
  | 15 => ⟨S4x4096x8x8, .f32⟩
  | 16 => ⟨S4x4096x8x8, .f32⟩
  | 17 => ⟨S_, .f32⟩
  | 18 => ⟨S4x4096x8x8, .f32⟩
  | 19 => ⟨S4x4096x8x8, .i1⟩
  | 20 => ⟨S_, .f32⟩
  | 21 => ⟨S4x4096x8x8, .f32⟩
  | 22 => ⟨S4x4096x8x8, .f32⟩
  | 23 => ⟨S4x4096x8x64, .f32⟩
  | 24 => ⟨S4x4096x16x64, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S1, .i32⟩
  | 34 => ⟨S_, .i32⟩
  | 35 => ⟨S4096x1, .i32⟩
  | 36 => ⟨S4096x1, .i1⟩
  | 37 => ⟨S1x1, .i32⟩
  | 38 => ⟨S4096x1, .i32⟩
  | 39 => ⟨S4096x1, .i1⟩
  | 40 => ⟨S4096x1, .i1⟩
  | 41 => ⟨S_, .i1⟩
  | 42 => ⟨S4096, .i1⟩
  | 43 => ⟨S4x4096x16x64, .f32⟩
  | 44 => ⟨S4x4096x16x64, .i1⟩
  | 45 => ⟨S_, .f32⟩
  | 46 => ⟨S4x4096x16x64, .f32⟩
  | 47 => ⟨S4x4096x16x64, .f32⟩
  | _ => ⟨S4x4096x16x64, .f32⟩

abbrev hbmTy (i : Nat) : BufTy := match i / 128 with
  | 0 => hbmTy0_0 i
  | 1 => hbmTy0_1 i
  | _ => ⟨S4x4096x16x64, .f32⟩

abbrev bufTy : (tb : Table) → Fin (tcTables nBuf tb) → BufTy
  | .hbm, ⟨i, _⟩ => hbmTy i
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_cst : Ref sig .tc := ⟨.hbm, 78, rfl⟩
abbrev main_v7 : Ref sig .tc := ⟨.hbm, 79, rfl⟩
abbrev main_v8 : Ref sig .tc := ⟨.hbm, 80, rfl⟩
abbrev main_cst_1 : Ref sig .tc := ⟨.hbm, 81, rfl⟩
abbrev main_v9 : Ref sig .tc := ⟨.hbm, 82, rfl⟩
abbrev main_cst_2 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_3 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_cst_4 : Ref sig .tc := ⟨.hbm, 95, rfl⟩
abbrev main_call3_v0 : Ref sig .tc := ⟨.hbm, 96, rfl⟩
abbrev main_call3_v1 : Ref sig .tc := ⟨.hbm, 97, rfl⟩
abbrev main_call3_call0_v0 : Ref sig .tc := ⟨.hbm, 98, rfl⟩
abbrev main_call3_v2 : Ref sig .tc := ⟨.hbm, 99, rfl⟩
abbrev main_call3_cst : Ref sig .tc := ⟨.hbm, 100, rfl⟩
abbrev main_call3_v3 : Ref sig .tc := ⟨.hbm, 101, rfl⟩
abbrev main_call3_v4 : Ref sig .tc := ⟨.hbm, 102, rfl⟩
abbrev main_call3_cst_0 : Ref sig .tc := ⟨.hbm, 103, rfl⟩
abbrev main_call3_call1_v0 : Ref sig .tc := ⟨.hbm, 104, rfl⟩
abbrev main_call3_v5 : Ref sig .tc := ⟨.hbm, 105, rfl⟩
abbrev main_call3_cst_1 : Ref sig .tc := ⟨.hbm, 106, rfl⟩
abbrev main_call3_v6 : Ref sig .tc := ⟨.hbm, 107, rfl⟩
abbrev main_call3_v7 : Ref sig .tc := ⟨.hbm, 108, rfl⟩
abbrev main_call3_cst_2 : Ref sig .tc := ⟨.hbm, 109, rfl⟩
abbrev main_call3_call2_v0 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_cst_5 : Ref sig .tc := ⟨.hbm, 117, rfl⟩
abbrev main_v26 : Ref sig .tc := ⟨.hbm, 118, rfl⟩
abbrev main_v27 : Ref sig .tc := ⟨.hbm, 119, rfl⟩
abbrev main_cst_6 : Ref sig .tc := ⟨.hbm, 120, rfl⟩
abbrev main_v28 : Ref sig .tc := ⟨.hbm, 121, rfl⟩
abbrev main_cst_7 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_cst_8 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_9 : Ref sig .tc := ⟨.hbm, 134, rfl⟩
abbrev main_call4_v0 : Ref sig .tc := ⟨.hbm, 135, rfl⟩
abbrev main_call4_v1 : Ref sig .tc := ⟨.hbm, 136, rfl⟩
abbrev main_call4_call0_v0 : Ref sig .tc := ⟨.hbm, 137, rfl⟩
abbrev main_call4_v2 : Ref sig .tc := ⟨.hbm, 138, rfl⟩
abbrev main_call4_cst : Ref sig .tc := ⟨.hbm, 139, rfl⟩
abbrev main_call4_v3 : Ref sig .tc := ⟨.hbm, 140, rfl⟩
abbrev main_call4_v4 : Ref sig .tc := ⟨.hbm, 141, rfl⟩
abbrev main_call4_cst_0 : Ref sig .tc := ⟨.hbm, 142, rfl⟩
abbrev main_call4_call1_v0 : Ref sig .tc := ⟨.hbm, 143, rfl⟩
abbrev main_call4_v5 : Ref sig .tc := ⟨.hbm, 144, rfl⟩
abbrev main_call4_cst_1 : Ref sig .tc := ⟨.hbm, 145, rfl⟩
abbrev main_call4_v6 : Ref sig .tc := ⟨.hbm, 146, rfl⟩
abbrev main_call4_v7 : Ref sig .tc := ⟨.hbm, 147, rfl⟩
abbrev main_call4_cst_2 : Ref sig .tc := ⟨.hbm, 148, rfl⟩
abbrev main_call4_call2_v0 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v42 : Ref sig .tc := ⟨.hbm, 175, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4x4096x16x64_1 : S4096.BroadcastsInDim S4x4096x16x64 (![1] : Fin 1 → Fin S4x4096x16x64.rank)
  bcast_S_S4x4096x16x64 : S_.BroadcastsInDim S4x4096x16x64 (![] : Fin 0 → Fin S4x4096x16x64.rank)
  slices_S4x4096x16x64_S4x4096x8x64_0_0_0_0 : S4x4096x16x64.Slices ![0, 0, 0, 0] S4x4096x8x64
  bcast_S_S4x4096x8x8 : S_.BroadcastsInDim S4x4096x8x8 (![] : Fin 0 → Fin S4x4096x8x8.rank)
  reducesTo_S4x4096x8x8_S4x4096x8_d3 : S4x4096x8x8.ReducesTo [3] S4x4096x8
  bcast_S_S4x4096x8 : S_.BroadcastsInDim S4x4096x8 (![] : Fin 0 → Fin S4x4096x8.rank)
  bcast_S4x4096x8_S4x4096x8x1_0_1_2 : S4x4096x8.BroadcastsInDim S4x4096x8x1 (![0, 1, 2] : Fin 3 → Fin S4x4096x8x1.rank)
  bcast_S4x4096x8x1_S4x4096x8x8_0_1_2_3 : S4x4096x8x1.BroadcastsInDim S4x4096x8x8 (![0, 1, 2, 3] : Fin 4 → Fin S4x4096x8x8.rank)
  slices_S4x4096x16x64_S4x4096x8x64_0_0_8_0 : S4x4096x16x64.Slices ![0, 0, 8, 0] S4x4096x8x64
  concatenates_S4x4096x8x64_S4x4096x8x64_S4x4096x16x64_d2 : Shape.Concatenates [S4x4096x8x64, S4x4096x8x64] S4x4096x16x64 2
  gather_S4x4096x16x64_S4096x1_S4x4096x16x64_023_1_n_n_1_1_411664_wf : GatherDims.WF S4x4096x16x64 S4096x1 S4x4096x16x64 [0, 2, 3] [1] [] [1] [] 1 ![4, 1, 16, 64]
  dot_S4x4096x8x64_S4x4096x8x64_S4x4096x8x8_3_3_2_2_01_01_wf : DotDims.WF S4x4096x8x64 S4x4096x8x64 S4x4096x8x8 [3] [3] [2] [2] [0, 1] [0, 1]
  dot_S4x4096x8x8_S4x4096x8x64_S4x4096x8x64_3_2_2_3_01_01_wf : DotDims.WF S4x4096x8x8 S4x4096x8x64 S4x4096x8x64 [3] [2] [2] [3] [0, 1] [0, 1]

variable [Facts₀]

def gather_S4x4096x16x64_S4096x1_S4x4096x16x64_023_1_n_n_1_1_411664 : GatherDims S4x4096x16x64 S4096x1 S4x4096x16x64 where
  offsetDims := [0, 2, 3]
  collapsedSliceDims := [1]
  operandBatchingDims := []
  startIndicesBatchingDims := []
  startIndexMap := [1]
  indexVectorDim := 1
  sliceSizes := ![4, 1, 16, 64]
  wf := gather_S4x4096x16x64_S4096x1_S4x4096x16x64_023_1_n_n_1_1_411664_wf
def dot_S4x4096x8x64_S4x4096x8x64_S4x4096x8x8_3_3_2_2_01_01 : DotDims S4x4096x8x64 S4x4096x8x64 S4x4096x8x8 where
  lhsContracting := [3]
  rhsContracting := [3]
  lhsNonContracting := [2]
  rhsNonContracting := [2]
  lhsBatch := [0, 1]
  rhsBatch := [0, 1]
  wf := dot_S4x4096x8x64_S4x4096x8x64_S4x4096x8x8_3_3_2_2_01_01_wf
def dot_S4x4096x8x8_S4x4096x8x64_S4x4096x8x64_3_2_2_3_01_01 : DotDims S4x4096x8x8 S4x4096x8x64 S4x4096x8x64 where
  lhsContracting := [3]
  rhsContracting := [2]
  lhsNonContracting := [2]
  rhsNonContracting := [3]
  lhsBatch := [0, 1]
  rhsBatch := [0, 1]
  wf := dot_S4x4096x8x8_S4x4096x8x64_S4x4096x8x64_3_2_2_3_01_01_wf

class Facts : Prop extends Facts₀ where

variable [Facts]
-- ==== Proof.KDefs.lean ====
/-
  The kernel body's arithmetic cut into named functions of arrays — a group's scores, each row's maximum and sum spread
  back over the row, the weights, the weighted sum — so that the two stored values are one composition of them and each
  piece can be read at an index by itself.
-/
import proofs.«162543_j4784593568285_1_alg».proof.Proof.Gen.KernelIdeal.Skeleton

noncomputable section

namespace Cert.KernelIdeal.KVal

open Cert.KernelIdeal Cert.KernelIdeal.Gen Idealize.ShloMosaic Idealize.SL.Sem

variable {F : FTy → Type} [FloatOps F]

/-- The replacement of non-finite values over a block of weights, its three steps. -/
def kN2nA (x : FVec F S256x8x8 .f32) : FVec F S256x8x8 .f32 :=
  select (cmpf .one x x) (broadcast S256x8x8 (Scalar.ofBits .f32 0x00000000#32)) x
def kN2nB (x : FVec F S256x8x8 .f32) : FVec F S256x8x8 .f32 :=
  select (cmpf .oeq (kN2nA x) (broadcast S256x8x8 (Scalar.ofBits .f32 0x7F800000#32)))
    (broadcast S256x8x8 (Scalar.ofBits .f32 0x7F7FFFFF#32)) (kN2nA x)
def kN2n (x : FVec F S256x8x8 .f32) : FVec F S256x8x8 .f32 :=
  select (cmpf .oeq (kN2nB x) (broadcast S256x8x8 (Scalar.ofBits .f32 0xFF800000#32)))
    (broadcast S256x8x8 (Scalar.ofBits .f32 0xFF7FFFFF#32)) (kN2nB x)

/-- Each row's maximum, spread back over the row. -/
def kMax (sc : FVec F S256x8x8 .f32) : FVec F S256x8x8 .f32 :=
  broadcastTo S256x8x8
    (shapeCast S256x8x1
      (maximumf (broadcast S256x8 (Scalar.ofBits .f32 0xFF800000#32))
        (multiReduction .maximumf [2] S256x8 sc 0xFF800000#32 reduces_S256x8x8_S256x8 (.inl rfl) rfl))
      shapeCasts_S256x8_S256x8x1)
    broadcasts_S256x8x1_S256x8x8

/-- The shifted exponentials. -/
def kExp (sc : FVec F S256x8x8 .f32) : FVec F S256x8x8 .f32 := exp (subf sc (kMax sc))

/-- Each row's sum, spread back over the row. -/
def kSum (ex : FVec F S256x8x8 .f32) : FVec F S256x8x8 .f32 :=
  broadcastTo S256x8x8
    (shapeCast S256x8x1
      (multiReduction .add [2] S256x8 ex 0x00000000#32 reduces_S256x8x8_S256x8 (.inl rfl) rfl)
      shapeCasts_S256x8_S256x8x1)
    broadcasts_S256x8x1_S256x8x8

/-- A group's weights from its scores. -/
def kWeights (sc : FVec F S256x8x8 .f32) : FVec F S256x8x8 .f32 := kN2n (divf (kExp sc) (kSum (kExp sc)))

/-- A group's scores: the batched product over the coordinates into zero, times 1/8. -/
def kScores (qs ks : FVec F S256x8x64 .f32) : FVec F S256x8x8 .f32 :=
  mulf (matmul dot_S256x8x64_S256x8x64_S256x8x8_2_2_1_1_0_0 none (truncf .bf16 qs bitsLt_bf16_f32) (truncf .bf16 ks bitsLt_bf16_f32)
      (constant S256x8x8 .f32 0x00000000#32))
    (broadcast S256x8x8 (Scalar.ofBits .f32 0x3E000000#32))

/-- One group's attention from its q-, k- and v-heads. -/
def kHeads (qs ks vs : FVec F S256x8x64 .f32) : FVec F S256x8x64 .f32 :=
  matmul dot_S256x8x8_S256x8x64_S256x8x64_2_1_1_2_0_0 none (truncf .bf16 (kWeights (kScores qs ks)) bitsLt_bf16_f32)
    (truncf .bf16 vs bitsLt_bf16_f32) (constant S256x8x64 .f32 0x00000000#32)

/-- The first and the second group's heads of a block. -/
def kSliceLo (x : FVec F S256x16x64 .f32) : FVec F S256x8x64 .f32 :=
  extractStridedSlice S256x8x64 ![0, 0, 0] x slices_S256x16x64_o0_0_0_S256x8x64
def kSliceHi (x : FVec F S256x16x64 .f32) : FVec F S256x8x64 .f32 :=
  extractStridedSlice S256x8x64 ![0, 8, 0] x slices_S256x16x64_o0_8_0_S256x8x64

/-- The value stored to heads 0 … 7 is the first group's attention … -/
theorem pay5_eq (v0 v2 v4 : Vec F S256x16x64 .f32) :
    k0_pay5 v0 v2 v4 = kHeads (kSliceLo (k0_pay2 v0)) (kSliceLo (k0_pay3 v2)) (kSliceLo (k0_pay4 v4)) := rfl

/-- … and the value stored to heads 8 … 15 the second group's. -/
theorem pay1_eq (v1 v3 v5 : FVec F S256x16x64 .f32) :
    k0_pay1 v1 v3 v5 = kHeads (kSliceHi v1) (kSliceHi v3) (kSliceHi v5) := rfl

end Cert.KernelIdeal.KVal

end
-- ==== Proof.AttnSpec.lean ====
/-
  The mathematics both programs compute, stated once over plain index types and the extended reals.

  One sequence position carries sixteen heads of sixty-four numbers for each of q, k and v. The heads are split in two
  groups of eight; inside a group every head attends to the eight heads of the same group AT THE SAME POSITION:
  score (i, j) is the inner product of q-head i with k-head j times 1/8, a row of eight scores is turned into weights by
  the max-shifted softmax followed by the replacement of non-finite values, and head i's result is the weighted sum of
  the group's v-heads. Nothing mixes two positions, which is why a permutation of the positions applied before and
  undone after this function is invisible.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-- The replacement of non-finite values on one extended real: a value different from itself becomes 0 (there is
    none), +∞ becomes the largest finite single-precision number, −∞ the smallest. -/
def n2n (x : EReal) : EReal :=
  Scalar.select
    (Ideal.cmp .oeq
      (Scalar.select (Ideal.cmp .oeq (Scalar.select (Ideal.cmp .une x x) (Ideal.ofBits .f32 0x00000000#32) x)
          (Ideal.ofBits .f32 0x7F800000#32))
        (Ideal.ofBits .f32 0x7F7FFFFF#32)
        (Scalar.select (Ideal.cmp .une x x) (Ideal.ofBits .f32 0x00000000#32) x))
      (Ideal.ofBits .f32 0xFF800000#32))
    (Ideal.ofBits .f32 0xFF7FFFFF#32)
    (Scalar.select (Ideal.cmp .oeq (Scalar.select (Ideal.cmp .une x x) (Ideal.ofBits .f32 0x00000000#32) x)
        (Ideal.ofBits .f32 0x7F800000#32))
      (Ideal.ofBits .f32 0x7F7FFFFF#32)
      (Scalar.select (Ideal.cmp .une x x) (Ideal.ofBits .f32 0x00000000#32) x))

/-- Score (i, j) of one group: the inner product over the sixty-four coordinates, times 1/8. -/
def score (Q K : Fin 8 → Fin 64 → EReal) (i j : Fin 8) : EReal :=
  (∑ e : Fin 64, Q i e * K j e) * Ideal.ofBits .f32 0x3E000000#32

/-- The maximum of a row of eight scores, taken from −∞ (and once more against −∞, as both programs do). -/
def rowMax (r : Fin 8 → EReal) : EReal :=
  max (Ideal.ofBits .f32 0xFF800000#32) ((Finset.univ : Finset (Fin 8)).fold max (Ideal.ofBits .f32 0xFF800000#32) r)

/-- The shifted exponential of entry j of a row. -/
def rowExp (r : Fin 8 → EReal) (j : Fin 8) : EReal := Ideal.exp (r j - rowMax r)

/-- The weight of entry j of a row: the shifted exponential over the row's sum of them, non-finite values replaced. -/
def weight (r : Fin 8 → EReal) (j : Fin 8) : EReal := n2n (Ideal.div (rowExp r j) (∑ j' : Fin 8, rowExp r j'))

/-- One group at one position: head i's result at coordinate d. -/
def headAttn (Q K V : Fin 8 → Fin 64 → EReal) (i : Fin 8) (d : Fin 64) : EReal :=
  ∑ j : Fin 8, weight (score Q K i) j * V j d

/-- Head j of the group that head h belongs to. -/
def hd (h : Fin 16) (j : Fin 8) : Fin 16 := ⟨8 * (h.val / 8) + j.val, by omega⟩
/-- Head h's place inside its group. -/
def lo (h : Fin 16) : Fin 8 := ⟨h.val % 8, by omega⟩

/-- Head i of the first group, and of the second. -/
def lo8 (i : Fin 8) : Fin 16 := ⟨i.val, by omega⟩
def hi8 (i : Fin 8) : Fin 16 := ⟨i.val + 8, by omega⟩

/-- One position: from its sixteen q-, k- and v-heads, head h's result at coordinate d. -/
def posAttn (Xq Xk Xv : Fin 16 → Fin 64 → EReal) (h : Fin 16) (d : Fin 64) : EReal :=
  headAttn (fun i e => Xq (hd h i) e) (fun j e => Xk (hd h j) e) (fun j e => Xv (hd h j) e) (lo h) d

/-- A head of the first group sees the first group's heads … -/
theorem posAttn_lo8 (Xq Xk Xv : Fin 16 → Fin 64 → EReal) (i : Fin 8) (d : Fin 64) :
    posAttn Xq Xk Xv (lo8 i) d
      = headAttn (fun i' e => Xq (lo8 i') e) (fun j e => Xk (lo8 j) e) (fun j e => Xv (lo8 j) e) i d := by
  have h1 : ∀ j : Fin 8, hd (lo8 i) j = lo8 j := fun j => Fin.ext (by
    show 8 * (i.val / 8) + j.val = j.val
    have := i.isLt; omega)
  have h2 : lo (lo8 i) = i := Fin.ext (by
    show i.val % 8 = i.val
    have := i.isLt; omega)
  unfold posAttn
  simp only [h1, h2]

/-- … and a head of the second group the second group's. -/
theorem posAttn_hi8 (Xq Xk Xv : Fin 16 → Fin 64 → EReal) (i : Fin 8) (d : Fin 64) :
    posAttn Xq Xk Xv (hi8 i) d
      = headAttn (fun i' e => Xq (hi8 i') e) (fun j e => Xk (hi8 j) e) (fun j e => Xv (hi8 j) e) i d := by
  have h1 : ∀ j : Fin 8, hd (hi8 i) j = hi8 j := fun j => Fin.ext (by
    show 8 * ((i.val + 8) / 8) + j.val = j.val + 8
    have := i.isLt; omega)
  have h2 : lo (hi8 i) = i := Fin.ext (by
    show (i.val + 8) % 8 = i.val
    have := i.isLt; omega)
  unfold posAttn
  simp only [h1, h2]

/-- Every head is a head of the first group or of the second. -/
theorem head_cases (h : Fin 16) : (∃ i : Fin 8, h = lo8 i) ∨ (∃ i : Fin 8, h = hi8 i) := by
  by_cases hh : h.val < 8
  · exact Or.inl ⟨⟨h.val, hh⟩, Fin.ext rfl⟩
  · exact Or.inr ⟨⟨h.val - 8, by have := h.isLt; omega⟩, Fin.ext (by show h.val = h.val - 8 + 8; omega)⟩

/-- The arrays' shape: batch, position, head, coordinate. -/
abbrev SQ : Shape := ⟨4, ![4, 4096, 16, 64]⟩

/-- The whole result by coordinates. -/
def attnAt (q k v : SQ.Idx → EReal) (b : Fin 4) (s : Fin 4096) (h : Fin 16) (d : Fin 64) : EReal :=
  posAttn (fun h' e => q (ix4 b s h' e)) (fun h' e => k (ix4 b s h' e)) (fun h' e => v (ix4 b s h' e)) h d

/-- The whole result as an array. -/
def attn (q k v : SQ.Idx → EReal) : SQ.Idx → EReal := fun y => attnAt q k v (y 0) (y 1) (y 2) (y 3)

theorem attn_apply (q k v : SQ.Idx → EReal) (b : Fin 4) (s : Fin 4096) (h : Fin 16) (d : Fin 64) :
    attn q k v (ix4 b s h d) = attnAt q k v b s h d := rfl

end Cert.AttnSpec

end
-- ==== Proof.KDots.lean ====
/-
  The kernel's two batched products read at an index.
-/
import proofs.«162543_j4784593568285_1_alg».proof.Proof.KDefs
import proofs.«162543_j4784593568285_1_alg».proof.Proof.AttnSpec
import Idealize.ShloMosaic.PureOps.Ideal.Laws
import Idealize.ShloMosaic.Lib.ValueIdx

noncomputable section

open scoped BigOperators

namespace Cert.KernelIdeal.KVal

open Cert.KernelIdeal Cert.KernelIdeal.Gen Idealize.ShloMosaic Idealize.ShloMosaic.ValueIdx Cert.AttnSpec

/-! ## The scores' product: q-heads by k-heads over the sixty-four coordinates, one row of the block at a time -/

/-- The operand indices of the scores' product, axis by axis: the batch axis and the free axis read the result index,
    the contracted axis reads the contraction index. -/
theorem lhsQK_0 (j : S256x8x8.Idx) (k : dot_S256x8x64_S256x8x64_S256x8x8_2_2_1_1_0_0.contr.Idx) :
    (dot_S256x8x64_S256x8x64_S256x8x8_2_2_1_1_0_0.lhsIdx j k 0).val = (j 0).val := rfl
theorem lhsQK_1 (j : S256x8x8.Idx) (k : dot_S256x8x64_S256x8x64_S256x8x8_2_2_1_1_0_0.contr.Idx) :
    (dot_S256x8x64_S256x8x64_S256x8x8_2_2_1_1_0_0.lhsIdx j k 1).val = (j 1).val := rfl
theorem lhsQK_2 (j : S256x8x8.Idx) (k : dot_S256x8x64_S256x8x64_S256x8x8_2_2_1_1_0_0.contr.Idx) :
    (dot_S256x8x64_S256x8x64_S256x8x8_2_2_1_1_0_0.lhsIdx j k 2).val = (k ⟨0, by decide⟩).val := rfl
theorem rhsQK_0 (j : S256x8x8.Idx) (k : dot_S256x8x64_S256x8x64_S256x8x8_2_2_1_1_0_0.contr.Idx) :
    (dot_S256x8x64_S256x8x64_S256x8x8_2_2_1_1_0_0.rhsIdx j k 0).val = (j 0).val := rfl
theorem rhsQK_1 (j : S256x8x8.Idx) (k : dot_S256x8x64_S256x8x64_S256x8x8_2_2_1_1_0_0.contr.Idx) :
    (dot_S256x8x64_S256x8x64_S256x8x8_2_2_1_1_0_0.rhsIdx j k 1).val = (j 2).val := rfl
theorem rhsQK_2 (j : S256x8x8.Idx) (k : dot_S256x8x64_S256x8x64_S256x8x8_2_2_1_1_0_0.contr.Idx) :
    (dot_S256x8x64_S256x8x64_S256x8x8_2_2_1_1_0_0.rhsIdx j k 2).val = (k ⟨0, by decide⟩).val := rfl

/-- At result index (n, i, j) and coordinate e the left operand is read at (n, i, e) … -/
theorem lhsQK_idx (n : Fin 256) (i j : Fin 8) (e : Fin 64) :
    dot_S256x8x64_S256x8x64_S256x8x8_2_2_1_1_0_0.lhsIdx (ix3 n i j)
        ((contrEquiv1 dot_S256x8x64_S256x8x64_S256x8x8_2_2_1_1_0_0 64 rfl rfl).symm e) = ix3 n i e := by
  funext a
  match a with
  | ⟨0, _⟩ => exact Fin.ext (lhsQK_0 _ _)
  | ⟨1, _⟩ => exact Fin.ext (lhsQK_1 _ _)
  | ⟨2, _⟩ => exact Fin.ext ((lhsQK_2 _ _).trans (contrEquiv1_symm_val _ _ _ _ e))

/-- … and the right operand at (n, j, e). -/
theorem rhsQK_idx (n : Fin 256) (i j : Fin 8) (e : Fin 64) :
    dot_S256x8x64_S256x8x64_S256x8x8_2_2_1_1_0_0.rhsIdx (ix3 n i j)
        ((contrEquiv1 dot_S256x8x64_S256x8x64_S256x8x8_2_2_1_1_0_0 64 rfl rfl).symm e) = ix3 n j e := by
  funext a
  match a with
  | ⟨0, _⟩ => exact Fin.ext (rhsQK_0 _ _)
  | ⟨1, _⟩ => exact Fin.ext (rhsQK_1 _ _)
  | ⟨2, _⟩ => exact Fin.ext ((rhsQK_2 _ _).trans (contrEquiv1_symm_val _ _ _ _ e))

/-- Score (i, j) of row n of a block: the inner product of q-head i with k-head j of that row, times 1/8. -/
theorem kScores_apply (qs ks : FVec Ideal S256x8x64 .f32) (n : Fin 256) (i j : Fin 8) :
    kScores qs ks (ix3 n i j) = score (fun i' e => qs (ix3 n i' e)) (fun j' e => ks (ix3 n j' e)) i j := by
  unfold kScores score
  rw [mulf_apply, broadcast_apply]
  show _ * Ideal.ofBits .f32 0x3E000000#32 = _
  congr 1
  simp only [matmul]
  rw [Ideal.matmul_constant_zero_apply,
    ← Equiv.sum_comp (contrEquiv1 dot_S256x8x64_S256x8x64_S256x8x8_2_2_1_1_0_0 64 rfl rfl).symm]
  refine Finset.sum_congr rfl fun e _ => ?_
  rw [truncf_apply, truncf_apply, lhsQK_idx, rhsQK_idx]

/-! ## The weighted sum's product: weights by v-heads over the eight heads of the group -/

/-- The operand indices of the weighted sum's product, axis by axis. -/
theorem lhsWV_0 (j : S256x8x64.Idx) (k : dot_S256x8x8_S256x8x64_S256x8x64_2_1_1_2_0_0.contr.Idx) :
    (dot_S256x8x8_S256x8x64_S256x8x64_2_1_1_2_0_0.lhsIdx j k 0).val = (j 0).val := rfl
theorem lhsWV_1 (j : S256x8x64.Idx) (k : dot_S256x8x8_S256x8x64_S256x8x64_2_1_1_2_0_0.contr.Idx) :
    (dot_S256x8x8_S256x8x64_S256x8x64_2_1_1_2_0_0.lhsIdx j k 1).val = (j 1).val := rfl
theorem lhsWV_2 (j : S256x8x64.Idx) (k : dot_S256x8x8_S256x8x64_S256x8x64_2_1_1_2_0_0.contr.Idx) :
    (dot_S256x8x8_S256x8x64_S256x8x64_2_1_1_2_0_0.lhsIdx j k 2).val = (k ⟨0, by decide⟩).val := rfl
theorem rhsWV_0 (j : S256x8x64.Idx) (k : dot_S256x8x8_S256x8x64_S256x8x64_2_1_1_2_0_0.contr.Idx) :
    (dot_S256x8x8_S256x8x64_S256x8x64_2_1_1_2_0_0.rhsIdx j k 0).val = (j 0).val := rfl
theorem rhsWV_1 (j : S256x8x64.Idx) (k : dot_S256x8x8_S256x8x64_S256x8x64_2_1_1_2_0_0.contr.Idx) :
    (dot_S256x8x8_S256x8x64_S256x8x64_2_1_1_2_0_0.rhsIdx j k 1).val = (k ⟨0, by decide⟩).val := rfl
theorem rhsWV_2 (j : S256x8x64.Idx) (k : dot_S256x8x8_S256x8x64_S256x8x64_2_1_1_2_0_0.contr.Idx) :
    (dot_S256x8x8_S256x8x64_S256x8x64_2_1_1_2_0_0.rhsIdx j k 2).val = (j 2).val := rfl

/-- At result index (n, i, d) and head j the weights are read at (n, i, j) … -/
theorem lhsWV_idx (n : Fin 256) (i : Fin 8) (d : Fin 64) (j : Fin 8) :
    dot_S256x8x8_S256x8x64_S256x8x64_2_1_1_2_0_0.lhsIdx (ix3 n i d)
        ((contrEquiv1 dot_S256x8x8_S256x8x64_S256x8x64_2_1_1_2_0_0 8 rfl rfl).symm j) = ix3 n i j := by
  funext a
  match a with
  | ⟨0, _⟩ => exact Fin.ext (lhsWV_0 _ _)
  | ⟨1, _⟩ => exact Fin.ext (lhsWV_1 _ _)
  | ⟨2, _⟩ => exact Fin.ext ((lhsWV_2 _ _).trans (contrEquiv1_symm_val _ _ _ _ j))

/-- … and the v-heads at (n, j, d). -/
theorem rhsWV_idx (n : Fin 256) (i : Fin 8) (d : Fin 64) (j : Fin 8) :
    dot_S256x8x8_S256x8x64_S256x8x64_2_1_1_2_0_0.rhsIdx (ix3 n i d)
        ((contrEquiv1 dot_S256x8x8_S256x8x64_S256x8x64_2_1_1_2_0_0 8 rfl rfl).symm j) = ix3 n j d := by
  funext a
  match a with
  | ⟨0, _⟩ => exact Fin.ext (rhsWV_0 _ _)
  | ⟨1, _⟩ => exact Fin.ext ((rhsWV_1 _ _).trans (contrEquiv1_symm_val _ _ _ _ j))
  | ⟨2, _⟩ => exact Fin.ext (rhsWV_2 _ _)

/-- The weighted sum of row n's v-heads: entry (i, d) sums, over the eight heads j, weight (i, j) times v-head j at d. -/
theorem kDotWV_apply (w : FVec Ideal S256x8x8 .f32) (vs : FVec Ideal S256x8x64 .f32) (n : Fin 256) (i : Fin 8) (d : Fin 64) :
    matmul dot_S256x8x8_S256x8x64_S256x8x64_2_1_1_2_0_0 none (truncf .bf16 w bitsLt_bf16_f32) (truncf .bf16 vs bitsLt_bf16_f32)
        (constant S256x8x64 .f32 0x00000000#32) (ix3 n i d)
      = ∑ j : Fin 8, w (ix3 n i j) * vs (ix3 n j d) := by
  simp only [matmul]
  rw [Ideal.matmul_constant_zero_apply,
    ← Equiv.sum_comp (contrEquiv1 dot_S256x8x8_S256x8x64_S256x8x64_2_1_1_2_0_0 8 rfl rfl).symm]
  refine Finset.sum_congr rfl fun j _ => ?_
  rw [truncf_apply, truncf_apply, lhsWV_idx, rhsWV_idx]

end Cert.KernelIdeal.KVal

end
-- ==== Proof.KSoft.lean ====
/-
  The kernel's weights read at an index: entry (i, j) of row n depends on the eight scores (i, ·) of that row only.
-/
import proofs.«162543_j4784593568285_1_alg».proof.Proof.KDefs
import proofs.«162543_j4784593568285_1_alg».proof.Proof.AttnSpec
import Idealize.ShloMosaic.PureOps.Ideal.Laws
import Idealize.ShloMosaic.Lib.ValueIdx
import Idealize.ShloMosaic.Lib.Pipeline.Value

noncomputable section

open scoped BigOperators

namespace Cert.KernelIdeal.KVal

open Cert.KernelIdeal Cert.KernelIdeal.Gen Idealize.ShloMosaic Idealize.ShloMosaic.ValueIdx Cert.AttnSpec

/-- The index over the reduced index (n, i) whose coordinate on the dropped axis is k is (n, i, k). -/
theorem lift_ix (n : Fin 256) (i k : Fin 8) :
    reduces_S256x8x8_S256x8.lift (ix2 n i) k = ix3 n i k := by
  funext c
  match c with
  | ⟨0, _⟩ => exact Fin.ext rfl
  | ⟨1, _⟩ => exact Fin.ext rfl
  | ⟨2, _⟩ => exact Fin.ext rfl

/-- A value per row, given a trailing unit axis and spread over the row's eight entries, reads the row's value at
    every entry. -/
theorem spread_apply {α : Type} (v : S256x8.Idx → α) (n : Fin 256) (i j : Fin 8) :
    broadcastTo S256x8x8 (shapeCast S256x8x1 v shapeCasts_S256x8_S256x8x1) broadcasts_S256x8x1_S256x8x8 (ix3 n i j)
      = v (ix2 n i) := by
  rw [broadcastTo_apply _ _ (ix3 n i j) (ix3 n i (0 : Fin 1)) (by
    intro a
    match a with
    | ⟨0, _⟩ => rfl
    | ⟨1, _⟩ => rfl
    | ⟨2, _⟩ => rfl)]
  refine shapeCast_apply v _ (ix3 n i (0 : Fin 1)) (ix2 n i) ?_
  rw [Shape.rowMajor_val_two, Shape.rowMajor_val_three]
  show n.val * 8 + i.val = (n.val * 8 + i.val) * 1 + 0
  omega

/-- The maximum over the last axis at (n, i): the fold of max from −∞ over the row's eight entries. -/
theorem redMax_apply (sc : FVec Ideal S256x8x8 .f32) (n : Fin 256) (i : Fin 8) (hφ : FKind.Formats .f32)
    (hacc : (0xFF800000#32 : BitVec 32) = FKind.maximumf.neutral .f32 hφ) :
    multiReduction (F := Ideal) .maximumf [2] S256x8 sc 0xFF800000#32 reduces_S256x8x8_S256x8 hφ hacc (ix2 n i)
      = (Finset.univ : Finset (Fin 8)).fold max (Ideal.ofBits .f32 0xFF800000#32) (fun j' => sc (ix3 n i j')) := by
  refine (Ideal.multiReduction_maximumf_single sc _ reduces_S256x8x8_S256x8 hφ hacc (ix2 n i)).trans ?_
  show (Finset.univ : Finset (Fin 8)).fold max (Ideal.ofBits .f32 0xFF800000#32)
      (fun k => sc (reduces_S256x8x8_S256x8.lift (ix2 n i) k)) = _
  exact congrArg (fun f : Fin 8 → EReal => (Finset.univ : Finset (Fin 8)).fold max (Ideal.ofBits .f32 0xFF800000#32) f)
    (funext fun k => congrArg sc (lift_ix n i k))

/-- The sum over the last axis at (n, i): the sum of the row's eight entries. -/
theorem redSum_apply (ex : FVec Ideal S256x8x8 .f32) (n : Fin 256) (i : Fin 8) (hφ : FKind.Formats .f32)
    (hacc : (0x00000000#32 : BitVec 32) = FKind.add.neutral .f32 hφ) :
    multiReduction (F := Ideal) .add [2] S256x8 ex 0x00000000#32 reduces_S256x8x8_S256x8 hφ hacc (ix2 n i)
      = ∑ j' : Fin 8, ex (ix3 n i j') := by
  refine (Ideal.multiReduction_add_single ex _ reduces_S256x8x8_S256x8 hφ hacc (ix2 n i)).trans ?_
  show ∑ k : Fin 8, ex (reduces_S256x8x8_S256x8.lift (ix2 n i) k) = _
  exact Finset.sum_congr rfl fun k _ => congrArg ex (lift_ix n i k)

/-- Every entry of row (n, i) of the spread maximum is that row's maximum. -/
theorem kMax_apply (sc : FVec Ideal S256x8x8 .f32) (n : Fin 256) (i j : Fin 8) :
    kMax sc (ix3 n i j) = rowMax (fun j' => sc (ix3 n i j')) := by
  unfold kMax
  rw [spread_apply]
  exact congrArg (max (Ideal.ofBits .f32 0xFF800000#32)) (redMax_apply sc n i _ _)

/-- The shifted exponential at (n, i, j) is the row's at j. -/
theorem kExp_apply (sc : FVec Ideal S256x8x8 .f32) (n : Fin 256) (i j : Fin 8) :
    kExp sc (ix3 n i j) = rowExp (fun j' => sc (ix3 n i j')) j := by
  show Ideal.exp (sc (ix3 n i j) - kMax sc (ix3 n i j)) = _
  rw [kMax_apply]
  rfl

/-- Every entry of row (n, i) of the spread sum is the sum of that row. -/
theorem kSum_apply (ex : FVec Ideal S256x8x8 .f32) (n : Fin 256) (i j : Fin 8) :
    kSum ex (ix3 n i j) = ∑ j' : Fin 8, ex (ix3 n i j') := by
  unfold kSum
  rw [spread_apply]
  exact redSum_apply ex n i _ _

/-- The replacement of non-finite values acts entry by entry. -/
theorem kN2n_apply (x : FVec Ideal S256x8x8 .f32) (y : S256x8x8.Idx) : kN2n x y = n2n (x y) := rfl

/-- Weight (i, j) of row n: the weight of entry j of that row's i-th row of scores. -/
theorem kWeights_apply (sc : FVec Ideal S256x8x8 .f32) (n : Fin 256) (i j : Fin 8) :
    kWeights sc (ix3 n i j) = weight (fun j' => sc (ix3 n i j')) j := by
  unfold kWeights
  rw [kN2n_apply]
  show n2n (Ideal.div (kExp sc (ix3 n i j)) (kSum (kExp sc) (ix3 n i j))) = _
  rw [kSum_apply, kExp_apply]
  unfold weight
  exact congrArg (fun t => n2n (Ideal.div (rowExp (fun j' => sc (ix3 n i j')) j) t))
    (Finset.sum_congr rfl fun j' _ => kExp_apply sc n i j')

end Cert.KernelIdeal.KVal

end
-- ==== Proof.KPay.lean ====
/-
  What the kernel body leaves in its output block, read at an index: row n, head h, coordinate d holds the attention of
  row n's sixteen heads at (h, d).
-/
import proofs.«162543_j4784593568285_1_alg».proof.Proof.KDots
import proofs.«162543_j4784593568285_1_alg».proof.Proof.KSoft
import proofs.«162543_j4784593568285_1_alg».proof.Proof.Gen.KernelIdeal.Frame
import Idealize.ShloMosaic.Lib.Pipeline.Value

noncomputable section

open scoped BigOperators

namespace Cert.KernelIdeal.KVal

open Cert.KernelIdeal Cert.KernelIdeal.Gen Idealize.ShloMosaic Idealize.ShloMosaic.ValueIdx Cert.AttnSpec

/-- One group's attention of a block read at an index. -/
theorem kHeads_apply (qs ks vs : FVec Ideal S256x8x64 .f32) (n : Fin 256) (i : Fin 8) (d : Fin 64) :
    kHeads qs ks vs (ix3 n i d)
      = headAttn (fun i' e => qs (ix3 n i' e)) (fun j e => ks (ix3 n j e)) (fun j e => vs (ix3 n j e)) i d := by
  -- the row of scores the weights are taken of is the specification's row
  have hrow : (fun j' => kScores qs ks (ix3 n i j'))
      = score (fun i' e => qs (ix3 n i' e)) (fun j' e => ks (ix3 n j' e)) i :=
    funext fun j' => kScores_apply qs ks n i j'
  unfold kHeads
  rw [kDotWV_apply]
  unfold headAttn
  refine Finset.sum_congr rfl fun j _ => ?_
  rw [kWeights_apply, hrow]

/-- The first group's heads of a block at an index: head i of the group is head i of the block. -/
theorem kSliceLo_apply (x : FVec Ideal S256x16x64 .f32) (n : Fin 256) (i : Fin 8) (e : Fin 64) :
    kSliceLo x (ix3 n i e) = x (ix3 n (lo8 i) e) := by
  unfold kSliceLo
  refine extractStridedSlice_apply _ x _ (ix3 n i e) (ix3 n (lo8 i) e) fun a => ?_
  match a with
  | ⟨0, _⟩ => show n.val = 0 + n.val; omega
  | ⟨1, _⟩ => show i.val = 0 + i.val; omega
  | ⟨2, _⟩ => show e.val = 0 + e.val; omega

/-- The second group's heads of a block at an index: head i of the group is head i + 8 of the block. -/
theorem kSliceHi_apply (x : FVec Ideal S256x16x64 .f32) (n : Fin 256) (i : Fin 8) (e : Fin 64) :
    kSliceHi x (ix3 n i e) = x (ix3 n (hi8 i) e) := by
  unfold kSliceHi
  refine extractStridedSlice_apply _ x _ (ix3 n i e) (ix3 n (hi8 i) e) fun a => ?_
  match a with
  | ⟨0, _⟩ => show n.val = 0 + n.val; omega
  | ⟨1, _⟩ => show i.val + 8 = 8 + i.val; omega
  | ⟨2, _⟩ => show e.val = 0 + e.val; omega

/-- The three reshapes to the same shape change nothing. -/
theorem pay2_eq (x : Vec Ideal S256x16x64 .f32) : k0_pay2 (F := Ideal) x = x := shapeCast_self x _
theorem pay3_eq (x : Vec Ideal S256x16x64 .f32) : k0_pay3 (F := Ideal) x = x := shapeCast_self x _
theorem pay4_eq (x : Vec Ideal S256x16x64 .f32) : k0_pay4 (F := Ideal) x = x := shapeCast_self x _

/-- The value stored to heads 0 … 7, at an index. -/
theorem pay5_apply (x0 x1 x2 : Vec Ideal S256x16x64 .f32) (n : Fin 256) (i : Fin 8) (d : Fin 64) :
    k0_pay5 (F := Ideal) x0 x1 x2 (ix3 n i d)
      = headAttn (fun i' e => x0 (ix3 n (lo8 i') e)) (fun j e => x1 (ix3 n (lo8 j) e)) (fun j e => x2 (ix3 n (lo8 j) e)) i d := by
  rw [pay5_eq, kHeads_apply, pay2_eq, pay3_eq, pay4_eq]
  simp only [kSliceLo_apply]

/-- The value stored to heads 8 … 15, at an index. -/
theorem pay1_apply (x0 x1 x2 : Vec Ideal S256x16x64 .f32) (n : Fin 256) (i : Fin 8) (d : Fin 64) :
    k0_pay1 (F := Ideal) (k0_pay2 x0) (k0_pay3 x1) (k0_pay4 x2) (ix3 n i d)
      = headAttn (fun i' e => x0 (ix3 n (hi8 i') e)) (fun j e => x1 (ix3 n (hi8 j) e)) (fun j e => x2 (ix3 n (hi8 j) e)) i d := by
  rw [pay1_eq, kHeads_apply, pay2_eq, pay3_eq, pay4_eq]
  simp only [kSliceHi_apply]

/-- A head of the first group lies outside the rectangle of heads 8 … 15 … -/
theorem lo8_not_mem (n : Fin 256) (i : Fin 8) (d : Fin 64) : ix3 n (lo8 i) d ∉ (r0_2 : Rect S256x16x64).set := by
  rw [Rect.mem_set_unit]
  intro hh
  have h1 := (hh (1 : Fin 3)).1
  have h2 : (8 : Nat) ≤ i.val := h1
  have := i.isLt
  omega

/-- … and is the i-th head of the rectangle of heads 0 … 7; -/
theorem lo8_emb (n : Fin 256) (i : Fin 8) (d : Fin 64) :
    ix3 n (lo8 i) d = (r0_1 : Rect S256x16x64).emb (ix3 n i d) := by
  funext a; match a with
  | ⟨0, _⟩ => exact Fin.ext (by show n.val = 0 + 1 * n.val; omega)
  | ⟨1, _⟩ => exact Fin.ext (by show i.val = 0 + 1 * i.val; omega)
  | ⟨2, _⟩ => exact Fin.ext (by show d.val = 0 + 1 * d.val; omega)

/-- a head of the second group is the i-th head of the rectangle of heads 8 … 15. -/
theorem hi8_emb (n : Fin 256) (i : Fin 8) (d : Fin 64) :
    ix3 n (hi8 i) d = (r0_2 : Rect S256x16x64).emb (ix3 n i d) := by
  funext a; match a with
  | ⟨0, _⟩ => exact Fin.ext (by show n.val = 0 + 1 * n.val; omega)
  | ⟨1, _⟩ => exact Fin.ext (by show i.val + 8 = 8 + 1 * i.val; omega)
  | ⟨2, _⟩ => exact Fin.ext (by show d.val = 0 + 1 * d.val; omega)

/-- Two stores, the later one to heads 8 … 15 and the earlier one to heads 0 … 7, whatever their values: a head of the
    first group reads the earlier store's value … -/
theorem canon_lo (p0 p1 : Vec Ideal S256x8x64 .f32) (n : Fin 256) (i : Fin 8) (d : Fin 64) :
    View.canon ([⟨r0_2, p0⟩, ⟨r0_1, p1⟩] : List (View.Piece (Elt Ideal) S256x16x64 .f32)) (ix3 n (lo8 i) d)
      = p1 (ix3 n i d) :=
  (View.canon_cons_of_not_mem (⟨r0_2, p0⟩ : View.Piece (Elt Ideal) S256x16x64 .f32) [⟨r0_1, p1⟩] (lo8_not_mem n i d)).trans
    ((congrArg (View.canon ([⟨r0_1, p1⟩] : List (View.Piece (Elt Ideal) S256x16x64 .f32))) (lo8_emb n i d)).trans
      (View.canon_cons_emb r0_1 p1 [] (ix3 n i d)))

/-- … and a head of the second group the later store's. -/
theorem canon_hi (p0 p1 : Vec Ideal S256x8x64 .f32) (n : Fin 256) (i : Fin 8) (d : Fin 64) :
    View.canon ([⟨r0_2, p0⟩, ⟨r0_1, p1⟩] : List (View.Piece (Elt Ideal) S256x16x64 .f32)) (ix3 n (hi8 i) d)
      = p0 (ix3 n i d) :=
  (congrArg (View.canon ([⟨r0_2, p0⟩, ⟨r0_1, p1⟩] : List (View.Piece (Elt Ideal) S256x16x64 .f32))) (hi8_emb n i d)).trans
    (View.canon_cons_emb r0_2 p0 [⟨r0_1, p1⟩] (ix3 n i d))

/-- A load through the whole block's rectangle reads the block. -/
theorem ld_whole (x : Vec Ideal S256x16x64 .f32) : View.ld x (r0_0 : Rect S256x16x64) = x :=
  View.ld_unit_zero (S := S256x16x64)
    (by funext a; match a with | ⟨0, _⟩ => rfl | ⟨1, _⟩ => rfl | ⟨2, _⟩ => rfl) _ x

/-- The output block after the body, at an index. -/
theorem out0_3_apply (x0 x1 x2 : Vec Ideal S256x16x64 .f32) (n : Fin 256) (h : Fin 16) (d : Fin 64) :
    out0_3 (F := Ideal) x0 x1 x2 (ix3 n h d)
      = posAttn (fun h' e => x0 (ix3 n h' e)) (fun h' e => x1 (ix3 n h' e)) (fun h' e => x2 (ix3 n h' e)) h d := by
  unfold out0_3
  rcases head_cases h with ⟨i, rfl⟩ | ⟨i, rfl⟩
  · refine (canon_lo _ _ n i d).trans ?_
    rw [ld_whole, ld_whole, ld_whole, pay5_apply, posAttn_lo8]
  · refine (canon_hi _ _ n i d).trans ?_
    rw [ld_whole, ld_whole, ld_whole, pay1_apply, posAttn_hi8]

end Cert.KernelIdeal.KVal

end
-- ==== Proof.KArr.lean ====
/-
  From the output blocks to the whole result: every block of 256 rows is the attention of those rows, the blocks tile
  the [16384, 16, 64] array, and the arrays around the region are the arguments and the result with batch and position
  merged into one axis (row b·4096 + s is position s of batch b).
-/
import proofs.«162543_j4784593568285_1_alg».proof.Defs
import proofs.«162543_j4784593568285_1_alg».proof.Proof.KPay
import proofs.«162543_j4784593568285_1_alg».proof.Proof.Gen.KernelIdeal.Frame
import Idealize.ShloMosaic.Lib.Pipeline.Value
import Idealize.ShloMosaic.Lib.StableHlo.Run

noncomputable section

open scoped BigOperators

namespace Cert.KernelIdeal.KVal.Arr

open Cert.KernelIdeal Cert.KernelIdeal.Gen Idealize.ShloMosaic Idealize.ShloMosaic.ValueIdx Idealize.SL.Sem Cert.AttnSpec

variable (m : (ℓ : Loc nD τ sig) → Buf (Elt Ideal) ℓ) (ρ : Dev nD → PrngReg)

/-! ## One function of the flattened arrays -/

/-- The attention row by row on the arrays with batch and position merged: row r, head h, coordinate d of the result
    is the attention of row r's sixteen q-, k- and v-heads at (h, d). No two rows mix. -/
def rowAttn (a0 a1 a2 : S16384x16x64.Idx → EReal) : S16384x16x64.Idx → EReal := fun y =>
  posAttn (fun h' e => a0 (ix3 (y 0) h' e)) (fun h' e => a1 (ix3 (y 0) h' e)) (fun h' e => a2 (ix3 (y 0) h' e)) (y 1) (y 2)

/-! ## The blocks -/

/-- The four windows move together: at point t each is on block (t, 0, 0), that is on rows 256·t … 256·t + 255, all
    heads, all coordinates. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Entry (n, h, e) of the q-block at point t is entry (256·t + n, h, e) of the q-array. -/
theorem iblk0_apply (c : Dev nD) (t : Fin cfg0.N) (n : Fin 256) (h : Fin 16) (e : Fin 64) (k : S16384x16x64.Idx)
    (hk0 : (k 0).val = 256 * t.val + n.val) (hk1 : (k 1).val = h.val) (hk2 : (k 2).val = e.val) :
    (iblk m c 0 t : Vec Ideal S256x16x64 .f32) (ix3 n h e) = (V m c main_v0 : S16384x16x64.Idx → EReal) k := by
  obtain ⟨e0, e1, e2, -⟩ := idx_facts t
  unfold iblk
  rw [View.read_apply]
  show V m c main_v0 _ = V m c main_v0 k
  congr 1
  funext a
  apply Fin.ext
  match a with
  | ⟨0, _⟩ => show win0_0.index t (0 : Fin 3) * 256 + 1 * n.val = (k 0).val; rw [e0, hk0]; omega
  | ⟨1, _⟩ => show win0_0.index t (1 : Fin 3) * 16 + 1 * h.val = (k 1).val; rw [e1, hk1]; omega
  | ⟨2, _⟩ => show win0_0.index t (2 : Fin 3) * 64 + 1 * e.val = (k 2).val; rw [e2, hk2]; omega

/-- The same for the k-block … -/
theorem iblk1_apply (c : Dev nD) (t : Fin cfg0.N) (n : Fin 256) (h : Fin 16) (e : Fin 64) (k : S16384x16x64.Idx)
    (hk0 : (k 0).val = 256 * t.val + n.val) (hk1 : (k 1).val = h.val) (hk2 : (k 2).val = e.val) :
    (iblk m c 1 t : Vec Ideal S256x16x64 .f32) (ix3 n h e) = (V m c main_v1 : S16384x16x64.Idx → EReal) k := by
  obtain ⟨-, -, -, e0, e1, e2, -⟩ := idx_facts t
  unfold iblk
  rw [View.read_apply]
  show V m c main_v1 _ = V m c main_v1 k
  congr 1
  funext a
  apply Fin.ext
  match a with
  | ⟨0, _⟩ => show win0_1.index t (0 : Fin 3) * 256 + 1 * n.val = (k 0).val; rw [e0, hk0]; omega
  | ⟨1, _⟩ => show win0_1.index t (1 : Fin 3) * 16 + 1 * h.val = (k 1).val; rw [e1, hk1]; omega
  | ⟨2, _⟩ => show win0_1.index t (2 : Fin 3) * 64 + 1 * e.val = (k 2).val; rw [e2, hk2]; omega

/-- … and for the v-block. -/
theorem iblk2_apply (c : Dev nD) (t : Fin cfg0.N) (n : Fin 256) (h : Fin 16) (e : Fin 64) (k : S16384x16x64.Idx)
    (hk0 : (k 0).val = 256 * t.val + n.val) (hk1 : (k 1).val = h.val) (hk2 : (k 2).val = e.val) :
    (iblk m c 2 t : Vec Ideal S256x16x64 .f32) (ix3 n h e) = (V m c main_v2 : S16384x16x64.Idx → EReal) k := by
  obtain ⟨-, -, -, -, -, -, e0, e1, e2, -⟩ := idx_facts t
  unfold iblk
  rw [View.read_apply]
  show V m c main_v2 _ = V m c main_v2 k
  congr 1
  funext a
  apply Fin.ext
  match a with
  | ⟨0, _⟩ => show win0_2.index t (0 : Fin 3) * 256 + 1 * n.val = (k 0).val; rw [e0, hk0]; omega
  | ⟨1, _⟩ => show win0_2.index t (1 : Fin 3) * 16 + 1 * h.val = (k 1).val; rw [e1, hk1]; omega
  | ⟨2, _⟩ => show win0_2.index t (2 : Fin 3) * 64 + 1 * e.val = (k 2).val; rw [e2, hk2]; omega

/-- Three blocks that are rows r … r + 255 of three arrays give an output block that is rows r … r + 255 of the arrays'
    row-wise attention: the output block's entry (n, h, d) is the attention of the blocks' row n, and that row is the
    arrays' row r + n. -/
theorem out_rows (x0 x1 x2 : Vec Ideal S256x16x64 .f32) (a0 a1 a2 : S16384x16x64.Idx → EReal) (r : Nat)
    (h0 : ∀ (n : Fin 256) (h : Fin 16) (e : Fin 64) (k : S16384x16x64.Idx),
      (k 0).val = r + n.val → (k 1).val = h.val → (k 2).val = e.val → x0 (ix3 n h e) = a0 k)
    (h1 : ∀ (n : Fin 256) (h : Fin 16) (e : Fin 64) (k : S16384x16x64.Idx),
      (k 0).val = r + n.val → (k 1).val = h.val → (k 2).val = e.val → x1 (ix3 n h e) = a1 k)
    (h2 : ∀ (n : Fin 256) (h : Fin 16) (e : Fin 64) (k : S16384x16x64.Idx),
      (k 0).val = r + n.val → (k 1).val = h.val → (k 2).val = e.val → x2 (ix3 n h e) = a2 k)
    (y : S256x16x64.Idx) (k : S16384x16x64.Idx)
    (hk0 : (k 0).val = r + (y 0).val) (hk1 : (k 1).val = (y 1).val) (hk2 : (k 2).val = (y 2).val) :
    out0_3 (F := Ideal) x0 x1 x2 y = rowAttn a0 a1 a2 k := by
  obtain ⟨n, h, d, rfl⟩ : ∃ (n : Fin 256) (h : Fin 16) (d : Fin 64), y = ix3 n h d := ⟨y 0, y 1, y 2, eq_ix3 y⟩
  rw [out0_3_apply]
  unfold rowAttn
  have e1 : k 1 = h := Fin.ext hk1
  have e2 : k 2 = d := Fin.ext hk2
  rw [e1, e2]
  congr 1
  · funext h' e; exact h0 n h' e _ hk0 rfl rfl
  · funext h' e; exact h1 n h' e _ hk0 rfl rfl
  · funext h' e; exact h2 n h' e _ hk0 rfl rfl

/-- What point t writes back is block t of the row-wise attention of the three arrays as the region finds them. -/
theorem flushed_eq (c : Dev nD) (t : Fin cfg0.N) :
    (dats m 0 c).flushed 3 t
      = ((cfg0.win 3).blk t).view.read (Elt Ideal) (rowAttn (V m c main_v0) (V m c main_v1) (V m c main_v2)) := by
  show (cfg0.win 3).cut (grid0.coords t) ((dats m 0 c).after 3 t) = _
  rw [after0_3]
  obtain ⟨-, -, -, -, -, -, -, -, -, e0, e1, e2⟩ := idx_facts t
  funext j
  rw [View.read_apply]
  show out0_3 (F := Ideal) (iblk m c 0 t) (iblk m c 1 t) (iblk m c 2 t) j
    = rowAttn (V m c main_v0) (V m c main_v1) (V m c main_v2) (((cfg0.win 3).blk t).view.emb j)
  refine out_rows (iblk m c 0 t) (iblk m c 1 t) (iblk m c 2 t) (V m c main_v0) (V m c main_v1) (V m c main_v2) (256 * t.val)
    (fun n h e k hk0 hk1 hk2 => iblk0_apply m c t n h e k hk0 hk1 hk2)
    (fun n h e k hk0 hk1 hk2 => iblk1_apply m c t n h e k hk0 hk1 hk2)
    (fun n h e k hk0 hk1 hk2 => iblk2_apply m c t n h e k hk0 hk1 hk2) j _ ?_ ?_ ?_
  · show win0_3.index t (0 : Fin 3) * 256 + 1 * (j 0).val = 256 * t.val + (j 0).val; rw [e0]; omega
  · show win0_3.index t (1 : Fin 3) * 16 + 1 * (j 1).val = (j 1).val; rw [e1]; omega
  · show win0_3.index t (2 : Fin 3) * 64 + 1 * (j 2).val = (j 2).val; rw [e2]; omega

/-! ## The blocks tile the result array -/

/-- An index of the result array is in point t's block iff each coordinate is in the block's range on its axis. -/
theorem mem_blk (t : Fin cfg0.N) (i : S16384x16x64.Idx) :
    i ∈ ((cfg0.win 3).blk t).view.set
      ↔ ∀ a : Fin 3, win0_3.index t a * S256x16x64.size a ≤ (i a).val
          ∧ (i a).val < win0_3.index t a * S256x16x64.size a + S256x16x64.size a := by
  show i ∈ ((View.whole main_v3).slice (win0_3.rect t)).set ↔ _
  rw [View.set_slice_whole, Rect.mem_set_unit]
  exact Iff.rfl

/-- Row r of the result array is in the block of point r / 256, which is written back. -/
theorem covered (i : S16384x16x64.Idx) :
    ∃ t : Fin cfg0.N, (cfg0.win 3).flush t = true ∧ i ∈ ((cfg0.win 3).blk t).view.set := by
  have hi0 : (i 0).val < 16384 := (i 0).isLt
  have hi1 : (i 1).val < 16 := (i 1).isLt
  have hi2 : (i 2).val < 64 := (i 2).isLt
  have hN : cfg0.N = 64 := N_0
  let t : Fin cfg0.N := ⟨(i 0).val / 256, by rw [hN]; omega⟩
  obtain ⟨-, -, -, -, -, -, -, -, -, e0, e1, e2⟩ := idx_facts t
  have ht : t.val = (i 0).val / 256 := rfl
  refine ⟨t, flush0_3 t, ?_⟩
  rw [mem_blk]
  intro a
  match a with
  | ⟨0, _⟩ =>
    show win0_3.index t (0 : Fin 3) * 256 ≤ (i 0).val ∧ (i 0).val < win0_3.index t (0 : Fin 3) * 256 + 256
    rw [e0, ht]; omega
  | ⟨1, _⟩ =>
    show win0_3.index t (1 : Fin 3) * 16 ≤ (i 1).val ∧ (i 1).val < win0_3.index t (1 : Fin 3) * 16 + 16
    rw [e1]; omega
  | ⟨2, _⟩ =>
    show win0_3.index t (2 : Fin 3) * 64 ≤ (i 2).val ∧ (i 2).val < win0_3.index t (2 : Fin 3) * 64 + 64
    rw [e2]; omega

/-- So the result array ends at the row-wise attention of the three arrays. -/
theorem final (c : Dev nD) :
    (dats m 0 c).arrAt 3 cfg0.N = rowAttn (V m c main_v0) (V m c main_v1) (V m c main_v2) :=
  (dats m 0 c).arrAt_eq_of_cover 3 (rowAttn (V m c main_v0) (V m c main_v1) (V m c main_v2))
    (fun t _ => flushed_eq m c t) covered

/-! ## Batch and position merged, and split again -/

/-- Row b·4096 + s of a flattened argument is position s of batch b. -/
theorem flat_apply (a : S4x4096x16x64.Idx → EReal) (b : Fin 4) (s : Fin 4096) (h : Fin 16) (e : Fin 64) (r : Fin 16384)
    (hr : r.val = b.val * 4096 + s.val) :
    shapeCast S16384x16x64 a shapeCasts_S4x4096x16x64_S16384x16x64 (ix3 r h e) = a (ix4 b s h e) :=
  shapeCast_apply a _ _ _ (by
    rw [Shape.rowMajor_val_four, Shape.rowMajor_val_three]
    show ((b.val * 4096 + s.val) * 16 + h.val) * 64 + e.val = (r.val * 16 + h.val) * 64 + e.val
    rw [hr])

/-- The row-wise attention of the flattened arguments, with batch and position split again, is the attention of the
    arguments. -/
theorem unflat_rowAttn (a0 a1 a2 : S4x4096x16x64.Idx → EReal) :
    shapeCast S4x4096x16x64
        (rowAttn (shapeCast S16384x16x64 a0 shapeCasts_S4x4096x16x64_S16384x16x64)
          (shapeCast S16384x16x64 a1 shapeCasts_S4x4096x16x64_S16384x16x64)
          (shapeCast S16384x16x64 a2 shapeCasts_S4x4096x16x64_S16384x16x64))
        shapeCasts_S16384x16x64_S4x4096x16x64
      = attn a0 a1 a2 := by
  funext y
  obtain ⟨b, s, h, d, rfl⟩ : ∃ (b : Fin 4) (s : Fin 4096) (h : Fin 16) (d : Fin 64), y = ix4 b s h d :=
    ⟨y 0, y 1, y 2, y 3, eq_ix4 y⟩
  have hr : b.val * 4096 + s.val < 16384 := by have := b.isLt; have := s.isLt; omega
  refine (shapeCast_apply _ shapeCasts_S16384x16x64_S4x4096x16x64 (ix4 b s h d) (ix3 (⟨b.val * 4096 + s.val, hr⟩ : Fin 16384) h d) (by
    rw [Shape.rowMajor_val_four, Shape.rowMajor_val_three]
    show ((b.val * 4096 + s.val) * 16 + h.val) * 64 + d.val = ((b.val * 4096 + s.val) * 16 + h.val) * 64 + d.val
    rfl)).trans ?_
  rw [attn_apply]
  unfold attnAt rowAttn
  show posAttn _ _ _ h d = posAttn _ _ _ h d
  congr 1
  · funext h' e; exact flat_apply a0 b s h' e _ rfl
  · funext h' e; exact flat_apply a1 b s h' e _ rfl
  · funext h' e; exact flat_apply a2 b s h' e _ rfl

/-- The arrays the region finds are the arguments with batch and position merged. -/
theorem V_main_v0 (c : Dev nD) :
    (V m c main_v0 : S16384x16x64.Idx → EReal)
      = shapeCast S16384x16x64 (m ((c.tc : Thread nD τ).loc main_arg0) : S4x4096x16x64.Idx → EReal) shapeCasts_S4x4096x16x64_S16384x16x64 := by
  dsimp only [Gen.V, Gen.V0]
  simp only [Gen.hostOps0, List.flatten_cons, List.flatten_nil, List.append_nil]
  after_results
  rfl
theorem V_main_v1 (c : Dev nD) :
    (V m c main_v1 : S16384x16x64.Idx → EReal)
      = shapeCast S16384x16x64 (m ((c.tc : Thread nD τ).loc main_arg1) : S4x4096x16x64.Idx → EReal) shapeCasts_S4x4096x16x64_S16384x16x64 := by
  dsimp only [Gen.V, Gen.V0]
  simp only [Gen.hostOps0, List.flatten_cons, List.flatten_nil, List.append_nil]
  after_results
  rfl
theorem V_main_v2 (c : Dev nD) :
    (V m c main_v2 : S16384x16x64.Idx → EReal)
      = shapeCast S16384x16x64 (m ((c.tc : Thread nD τ).loc main_arg2) : S4x4096x16x64.Idx → EReal) shapeCasts_S4x4096x16x64_S16384x16x64 := by
  dsimp only [Gen.V, Gen.V0]
  simp only [Gen.hostOps0, List.flatten_cons, List.flatten_nil, List.append_nil]
  after_results
  rfl

/-- After the reshape that follows the region, the result is the attention of the arguments. -/
theorem tail_eq (c : Dev nD) :
    Pipeline.afterTail₀ cfgs (dats m) 0 (V0 m) [hostOps1] c main_v4
      = attn (m ((c.tc : Thread nD τ).loc main_arg0)) (m ((c.tc : Thread nD τ).loc main_arg1)) (m ((c.tc : Thread nD τ).loc main_arg2)) := by
  have e : Pipeline.withArrays (cfgs 0).spec c (V0 m c) (fun w => (dats m 0 c).arrAt w (cfgs 0).N) (Proc.devRef .tc main_v3)
      = rowAttn (shapeCast S16384x16x64 (m ((c.tc : Thread nD τ).loc main_arg0) : S4x4096x16x64.Idx → EReal) shapeCasts_S4x4096x16x64_S16384x16x64)
          (shapeCast S16384x16x64 (m ((c.tc : Thread nD τ).loc main_arg1) : S4x4096x16x64.Idx → EReal) shapeCasts_S4x4096x16x64_S16384x16x64)
          (shapeCast S16384x16x64 (m ((c.tc : Thread nD τ).loc main_arg2) : S4x4096x16x64.Idx → EReal) shapeCasts_S4x4096x16x64_S16384x16x64) := by
    rw [← V_main_v0 m c, ← V_main_v1 m c, ← V_main_v2 m c]
    exact (Pipeline.withArrays_arr spec0 launch0.win.arr_inj c _ _ 3).trans (final m c)
  unfold Pipeline.afterTail₀
  show StableHlo.after hostOps1 _ (Proc.devRef .tc main_v4) = _
  after_results
  refine Eq.trans ?_ (unflat_rowAttn _ _ _)
  exact congrArg (fun X : S16384x16x64.Idx → EReal => shapeCast S4x4096x16x64 X shapeCasts_S16384x16x64_S4x4096x16x64) e

end Cert.KernelIdeal.KVal.Arr

namespace Cert.KernelIdeal.KVal

open Cert.KernelIdeal Cert.KernelIdeal.Gen Idealize.ShloMosaic Idealize.ShloMosaic.ValueIdx Idealize.SL.Sem Cert.AttnSpec

/-- The idealized kernel's run: it ends with its result at the attention of its three arguments, which it leaves as
    they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (Arr.tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KVal

end
-- ==== Proof.RefDefs.lean ====
/-
  The reference program's host operations composed into pure functions of arrays, one per outlined function and one for
  a group's attention, so that its run can be stated at ONE term and that term read at an index.
-/
import proofs.«162543_j4784593568285_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The forward table of positions (4096 words), as the first constant holds it. -/
def hilT : IVec S4096 32 := fun i => lit0 (S4096.rowMajor i)
/-- The backward table of positions, as the second constant holds it. -/
def invT : IVec S4096 32 := fun i => lit1 (S4096.rowMajor i)

/-- A table of positions with negative entries wrapped by 4096 (numpy's indexing from the end). -/
def takeIdx (tb : IVec S4096 32) : IVec S4096 32 :=
  select (cmpi .slt tb (broadcastInDim S4096 ![] bcast_S_S4096 (constantI S_ 32 0#32)))
    (addi tb (broadcastInDim S4096 ![] bcast_S_S4096 (constantI S_ 32 4096#32))) tb

/-- The same as a column of start indices. -/
def takeCol (tb : IVec S4096 32) : IVec S4096x1 32 :=
  broadcastInDim S4096x1 ![0] bcast_S4096_S4096x1_0 (takeIdx tb)

/-- Which entries of the table are inside 0 … 4095. -/
def takeMask (tb : IVec S4096 32) : IVec S4096 1 :=
  Host.reduce IntOp.andi
    (andi (cmpi .sge (takeCol tb) (broadcastInDim S4096x1 ![] bcast_S_S4096x1 (constantI S_ 32 0#32)))
      (cmpi .sle (takeCol tb)
        (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- Taking positions of a [4, 4096, 16, 64] array along axis 1 at a table: the gathered rows where the table's entry
    is in range, the fill value elsewhere. -/
def takeV (x : FVec F S4x4096x16x64 .f32) (tb : IVec S4096 32) : FVec F S4x4096x16x64 .f32 :=
  select (broadcastInDim S4x4096x16x64 ![1] bcast_S4096_S4x4096x16x64_1 (takeMask tb))
    (Host.gather gather_S4x4096x16x64_S4096x1_S4x4096x16x64_023_1_n_n_1_1_411664 x (takeCol tb))
    (broadcastInDim S4x4096x16x64 ![] bcast_S_S4x4096x16x64 (constant S_ .f32 0x7FC00000#32))

/-- A scalar chosen over an array where a condition holds. -/
def whereV (c : IVec S4x4096x8x8 1) (a : FVec F S_ .f32) (x : FVec F S4x4096x8x8 .f32) : FVec F S4x4096x8x8 .f32 :=
  select c (broadcastInDim S4x4096x8x8 ![] bcast_S_S4x4096x8x8 a) x

/-- The replacement of non-finite values over a [4, 4096, 8, 8] array, its three steps. -/
def n2nA (x : FVec F S4x4096x8x8 .f32) (z : FVec F S_ .f32) : FVec F S4x4096x8x8 .f32 :=
  whereV (cmpf .une x x) (id z) x
def n2nB (x : FVec F S4x4096x8x8 .f32) (z : FVec F S_ .f32) : FVec F S4x4096x8x8 .f32 :=
  whereV (cmpf .oeq (n2nA x z) (broadcastInDim S4x4096x8x8 ![] bcast_S_S4x4096x8x8 (constant S_ .f32 0x7F800000#32)))
    (constant S_ .f32 0x7F7FFFFF#32) (n2nA x z)
def n2nV (x : FVec F S4x4096x8x8 .f32) (z : FVec F S_ .f32) : FVec F S4x4096x8x8 .f32 :=
  whereV (cmpf .oeq (n2nB x z) (broadcastInDim S4x4096x8x8 ![] bcast_S_S4x4096x8x8 (constant S_ .f32 0xFF800000#32)))
    (constant S_ .f32 0xFF7FFFFF#32) (n2nB x z)

/-- A group's scores: the batched product over the coordinates, times 1/8. -/
def scoresV (qs ks : FVec F S4x4096x8x64 .f32) : FVec F S4x4096x8x8 .f32 :=
  mulf (Host.dotGeneral dot_S4x4096x8x64_S4x4096x8x64_S4x4096x8x8_3_3_2_2_01_01 none qs ks)
    (broadcastInDim S4x4096x8x8 ![] bcast_S_S4x4096x8x8 (constant S_ .f32 0x3E000000#32))

/-- Each row's maximum, spread back over the row. -/
def maxV (sc : FVec F S4x4096x8x8 .f32) : FVec F S4x4096x8x8 .f32 :=
  broadcastInDim S4x4096x8x8 ![0, 1, 2, 3] bcast_S4x4096x8x1_S4x4096x8x8_0_1_2_3
    (broadcastInDim S4x4096x8x1 ![0, 1, 2] bcast_S4x4096x8_S4x4096x8x1_0_1_2
      (maximumf (broadcastInDim S4x4096x8 ![] bcast_S_S4x4096x8 (constant S_ .f32 0xFF800000#32))
        (Host.reduce FloatOps.maximumf sc (constant S_ .f32 0xFF800000#32) reducesTo_S4x4096x8x8_S4x4096x8_d3 h_S_)))

/-- The shifted exponentials. -/
def expV (sc : FVec F S4x4096x8x8 .f32) : FVec F S4x4096x8x8 .f32 := Host.exp (subf sc (maxV sc))

/-- Each row's sum of them, spread back over the row. -/
def sumV (ex : FVec F S4x4096x8x8 .f32) : FVec F S4x4096x8x8 .f32 :=
  broadcastInDim S4x4096x8x8 ![0, 1, 2, 3] bcast_S4x4096x8x1_S4x4096x8x8_0_1_2_3
    (broadcastInDim S4x4096x8x1 ![0, 1, 2] bcast_S4x4096x8_S4x4096x8x1_0_1_2
      (Host.reduceAdd ex (constant S_ .f32 0x00000000#32) reducesTo_S4x4096x8x8_S4x4096x8_d3 h_S_))

/-- A group's weights from its scores. -/
def weightsV (sc : FVec F S4x4096x8x8 .f32) : FVec F S4x4096x8x8 .f32 :=
  n2nV (Host.divf (expV sc) (sumV (expV sc))) (constant S_ .f32 0x00000000#32)

/-- One group's attention from its (already sliced) q-, k- and v-heads. -/
def headsV (qs ks vs : FVec F S4x4096x8x64 .f32) : FVec F S4x4096x8x64 .f32 :=
  Host.dotGeneral dot_S4x4096x8x8_S4x4096x8x64_S4x4096x8x64_3_2_2_3_01_01 none (weightsV (scoresV qs ks)) vs

/-- The first and the second group's heads of an array. -/
def sliceLo (x : FVec F S4x4096x16x64 .f32) : FVec F S4x4096x8x64 .f32 :=
  extractStridedSlice S4x4096x8x64 ![0, 0, 0, 0] x slices_S4x4096x16x64_S4x4096x8x64_0_0_0_0
def sliceHi (x : FVec F S4x4096x16x64 .f32) : FVec F S4x4096x8x64 .f32 :=
  extractStridedSlice S4x4096x8x64 ![0, 0, 8, 0] x slices_S4x4096x16x64_S4x4096x8x64_0_0_8_0

/-- Both groups' attention of three arrays in the SAME position order, side by side along the heads. -/
def mixV (q k v : FVec F S4x4096x16x64 .f32) : FVec F S4x4096x16x64 .f32 :=
  concatenate S4x4096x16x64 2
    [⟨S4x4096x8x64, headsV (sliceLo q) (sliceLo k) (sliceLo v)⟩, ⟨S4x4096x8x64, headsV (sliceHi q) (sliceHi k) (sliceHi v)⟩]
    concatenates_S4x4096x8x64_S4x4096x8x64_S4x4096x16x64_d2

/-- What the reference computes from the three arguments: positions reordered by the forward table, the groups'
    attention, positions reordered by the backward table. -/
def refVal (q k v : FVec F S4x4096x16x64 .f32) : FVec F S4x4096x16x64 .f32 :=
  takeV (mixV (takeV q hilT) (takeV k hilT) (takeV v hilT)) invT

end Cert.ReferenceIdeal.RefValue

end
-- ==== Proof.RRunOps.lean ====
/-
  The reference program's @main as a list of host operations, cut into consecutive stretches: the two tables of
  positions, the three reorderings of the arguments by the forward table (the outlined function's operations at each
  call, over that call's buffers), the two groups' attention (with the outlined replacement of non-finite values at its
  call), and the concatenation with the reordering back by the backward table. @main is that straight line.
-/
import proofs.«162543_j4784593568285_1_alg».proof.Proof.RefDefs
import Idealize.ShloMosaic.Lib.StableHlo.Run

noncomputable section

namespace Cert.ReferenceIdeal.RefValue.Line

open Cert.ReferenceIdeal Cert.ReferenceIdeal.Gen Idealize.ShloMosaic Idealize.ShloMosaic.TcCoe Idealize.SL.Sem Idealize.ShloMosaic.StableHlo

variable {F : FTy → Type} [FloatOps F]

/-! ## The stretches of the line -/

/-- The two tables of positions. -/
def opsC : List (HloOp τ sig (Elt F)) :=
  [ nullary main_c (fun i => lit0 (S4096.rowMajor i)),
    nullary main_c_0 (fun i => lit1 (S4096.rowMajor i)) ]

/-- The first argument's positions reordered by the forward table. -/
def opsT0 : List (HloOp τ sig (Elt F)) :=
  [ TRef.nullary main_call0.c (constantI S_ 32 0#32),
    TRef.unary main_call0.c main_call0.v0 (broadcastInDim S4096 ![] bcast_S_S4096),
    TRef.binary (.of main_c : TRef sig ⟨S4096, .i32⟩) main_call0.v0 main_call0.v1 (cmpi .slt),
    TRef.nullary main_call0.c_0 (constantI S_ 32 4096#32),
    TRef.unary main_call0.c_0 main_call0.v2 (broadcastInDim S4096 ![] bcast_S_S4096),
    TRef.binary (.of main_c : TRef sig ⟨S4096, .i32⟩) main_call0.v2 main_call0.v3 addi,
    TRef.ternary main_call0.v1 main_call0.v3 (.of main_c : TRef sig ⟨S4096, .i32⟩) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0 : TRef sig ⟨S4x4096x16x64, .f32⟩) main_call0.v5 main_call0.v13 (fun x i => Host.gather gather_S4x4096x16x64_S4096x1_S4x4096x16x64_023_1_n_n_1_1_411664 x i),
    TRef.unary main_call0.v12 main_call0.v14 (broadcastInDim S4x4096x16x64 ![1] bcast_S4096_S4x4096x16x64_1),
    TRef.nullary main_call0.cst (constant S_ .f32 0x7FC00000#32),
    TRef.unary main_call0.cst main_call0.v15 (broadcastInDim S4x4096x16x64 ![] bcast_S_S4x4096x16x64),
    TRef.ternary main_call0.v14 main_call0.v13 main_call0.v15 main_call0.v16 select ]

/-- The second argument's. -/
def opsT1 : List (HloOp τ sig (Elt F)) :=
  [ TRef.nullary main_call1.c (constantI S_ 32 0#32),
    TRef.unary main_call1.c main_call1.v0 (broadcastInDim S4096 ![] bcast_S_S4096),
    TRef.binary (.of main_c : TRef sig ⟨S4096, .i32⟩) main_call1.v0 main_call1.v1 (cmpi .slt),
    TRef.nullary main_call1.c_0 (constantI S_ 32 4096#32),
    TRef.unary main_call1.c_0 main_call1.v2 (broadcastInDim S4096 ![] bcast_S_S4096),
    TRef.binary (.of main_c : TRef sig ⟨S4096, .i32⟩) main_call1.v2 main_call1.v3 addi,
    TRef.ternary main_call1.v1 main_call1.v3 (.of main_c : TRef sig ⟨S4096, .i32⟩) main_call1.call0.v0 select,
    TRef.unary main_call1.call0.v0 main_call1.v5 (broadcastInDim S4096x1 ![0] bcast_S4096_S4096x1_0),
    TRef.nullary main_call1.c_1 (constantI S1 32 4095#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg1 : TRef sig ⟨S4x4096x16x64, .f32⟩) main_call1.v5 main_call1.v13 (fun x i => Host.gather gather_S4x4096x16x64_S4096x1_S4x4096x16x64_023_1_n_n_1_1_411664 x i),
    TRef.unary main_call1.v12 main_call1.v14 (broadcastInDim S4x4096x16x64 ![1] bcast_S4096_S4x4096x16x64_1),
    TRef.nullary main_call1.cst (constant S_ .f32 0x7FC00000#32),
    TRef.unary main_call1.cst main_call1.v15 (broadcastInDim S4x4096x16x64 ![] bcast_S_S4x4096x16x64),
    TRef.ternary main_call1.v14 main_call1.v13 main_call1.v15 main_call1.v16 select ]

/-- The third argument's. -/
def opsT2 : List (HloOp τ sig (Elt F)) :=
  [ TRef.nullary main_call2.c (constantI S_ 32 0#32),
    TRef.unary main_call2.c main_call2.v0 (broadcastInDim S4096 ![] bcast_S_S4096),
    TRef.binary (.of main_c : TRef sig ⟨S4096, .i32⟩) main_call2.v0 main_call2.v1 (cmpi .slt),
    TRef.nullary main_call2.c_0 (constantI S_ 32 4096#32),
    TRef.unary main_call2.c_0 main_call2.v2 (broadcastInDim S4096 ![] bcast_S_S4096),
    TRef.binary (.of main_c : TRef sig ⟨S4096, .i32⟩) main_call2.v2 main_call2.v3 addi,
    TRef.ternary main_call2.v1 main_call2.v3 (.of main_c : TRef sig ⟨S4096, .i32⟩) main_call2.call0.v0 select,
    TRef.unary main_call2.call0.v0 main_call2.v5 (broadcastInDim S4096x1 ![0] bcast_S4096_S4096x1_0),
    TRef.nullary main_call2.c_1 (constantI S1 32 4095#32),
    TRef.nullary main_call2.c_2 (constantI S_ 32 0#32),
    TRef.unary main_call2.c_2 main_call2.v6 (broadcastInDim S4096x1 ![] bcast_S_S4096x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S4096x1 ![0, 1] bcast_S1x1_S4096x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x1_S4096_d1 h_S_),
    TRef.binary (.of main_arg2 : TRef sig ⟨S4x4096x16x64, .f32⟩) main_call2.v5 main_call2.v13 (fun x i => Host.gather gather_S4x4096x16x64_S4096x1_S4x4096x16x64_023_1_n_n_1_1_411664 x i),
    TRef.unary main_call2.v12 main_call2.v14 (broadcastInDim S4x4096x16x64 ![1] bcast_S4096_S4x4096x16x64_1),
    TRef.nullary main_call2.cst (constant S_ .f32 0x7FC00000#32),
    TRef.unary main_call2.cst main_call2.v15 (broadcastInDim S4x4096x16x64 ![] bcast_S_S4x4096x16x64),
    TRef.ternary main_call2.v14 main_call2.v13 main_call2.v15 main_call2.v16 select ]

/-- The first group's attention: slices, scores, softmax, replacement of non-finite values, weighted sum. -/
def opsG0 : List (HloOp τ sig (Elt F)) :=
  [ unary main_v0 main_v3 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    unary main_v1 main_v4 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    unary main_v2 main_v5 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    binary main_v3 main_v4 main_v6 ((fun l r => Host.dotGeneral dot_S4x4096x8x64_S4x4096x8x64_S4x4096x8x8_3_3_2_2_01_01 none l r) : (⟨S4x4096x8x64, .f32⟩ : BufTy).Contents (Elt F) → (⟨S4x4096x8x64, .f32⟩ : BufTy).Contents (Elt F) → (⟨S4x4096x8x8, .f32⟩ : BufTy).Contents (Elt F)),
    nullary main_cst (constant S_ .f32 0x3E000000#32),
    unary main_cst main_v7 (broadcastInDim S4x4096x8x8 ![] bcast_S_S4x4096x8x8 : (⟨S_, .f32⟩ : BufTy).Contents (Elt F) → (⟨S4x4096x8x8, .f32⟩ : BufTy).Contents (Elt F)),
    binary main_v6 main_v7 main_v8 (mulf : (⟨S4x4096x8x8, .f32⟩ : BufTy).Contents (Elt F) → (⟨S4x4096x8x8, .f32⟩ : BufTy).Contents (Elt F) → (⟨S4x4096x8x8, .f32⟩ : BufTy).Contents (Elt F)),
    nullary main_cst_1 (constant S_ .f32 0xFF800000#32),
    binary main_v8 main_cst_1 main_v9 ((fun x v => Host.reduce FloatOps.maximumf x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    nullary main_cst_2 (constant S_ .f32 0xFF800000#32),
    unary main_cst_2 main_v10 (broadcastInDim S4x4096x8 ![] bcast_S_S4x4096x8 : (⟨S_, .f32⟩ : BufTy).Contents (Elt F) → (⟨S4x4096x8, .f32⟩ : BufTy).Contents (Elt F)),
    binary main_v10 main_v9 main_v11 (maximumf : (⟨S4x4096x8, .f32⟩ : BufTy).Contents (Elt F) → (⟨S4x4096x8, .f32⟩ : BufTy).Contents (Elt F) → (⟨S4x4096x8, .f32⟩ : BufTy).Contents (Elt F)),
    unary main_v11 main_v12 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    unary main_v12 main_v13 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    binary main_v8 main_v13 main_v14 (subf : (⟨S4x4096x8x8, .f32⟩ : BufTy).Contents (Elt F) → (⟨S4x4096x8x8, .f32⟩ : BufTy).Contents (Elt F) → (⟨S4x4096x8x8, .f32⟩ : BufTy).Contents (Elt F)),
    unary main_v14 main_v15 (Host.exp : (⟨S4x4096x8x8, .f32⟩ : BufTy).Contents (Elt F) → (⟨S4x4096x8x8, .f32⟩ : BufTy).Contents (Elt F)),
    nullary main_cst_3 (constant S_ .f32 0x00000000#32),
    binary main_v15 main_cst_3 main_v16 ((fun x v => Host.reduceAdd x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    unary main_v16 main_v17 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    unary main_v17 main_v18 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    binary main_v15 main_v18 main_v19 (Host.divf : (⟨S4x4096x8x8, .f32⟩ : BufTy).Contents (Elt F) → (⟨S4x4096x8x8, .f32⟩ : BufTy).Contents (Elt F) → (⟨S4x4096x8x8, .f32⟩ : BufTy).Contents (Elt F)),
    nullary main_cst_4 (constant S_ .f32 0x00000000#32),
    TRef.binary (.of main_v19 : TRef sig ⟨S4x4096x8x8, .f32⟩) (.of main_v19 : TRef sig ⟨S4x4096x8x8, .f32⟩) main_call3.v0 (cmpf .une),
    TRef.unary (.of main_cst_4 : TRef sig ⟨S_, .f32⟩) main_call3.v1 id,
    TRef.unary main_call3.v1 main_call3.call0.v0 (broadcastInDim S4x4096x8x8 ![] bcast_S_S4x4096x8x8),
    TRef.ternary main_call3.v0 main_call3.call0.v0 (.of main_v19 : TRef sig ⟨S4x4096x8x8, .f32⟩) main_call3.call0.v1 select,
    TRef.nullary main_call3.cst (constant S_ .f32 0x7F800000#32),
    TRef.unary main_call3.cst main_call3.v3 (broadcastInDim S4x4096x8x8 ![] bcast_S_S4x4096x8x8),
    TRef.binary main_call3.call0.v1 main_call3.v3 main_call3.v4 (cmpf .oeq),
    TRef.nullary main_call3.cst_0 (constant S_ .f32 0x7F7FFFFF#32),
    TRef.unary main_call3.cst_0 main_call3.call1.v0 (broadcastInDim S4x4096x8x8 ![] bcast_S_S4x4096x8x8),
    TRef.ternary main_call3.v4 main_call3.call1.v0 main_call3.call0.v1 main_call3.call1.v1 select,
    TRef.nullary main_call3.cst_1 (constant S_ .f32 0xFF800000#32),
    TRef.unary main_call3.cst_1 main_call3.v6 (broadcastInDim S4x4096x8x8 ![] bcast_S_S4x4096x8x8),
    TRef.binary main_call3.call1.v1 main_call3.v6 main_call3.v7 (cmpf .oeq),
    TRef.nullary main_call3.cst_2 (constant S_ .f32 0xFF7FFFFF#32),
    TRef.unary main_call3.cst_2 main_call3.call2.v0 (broadcastInDim S4x4096x8x8 ![] bcast_S_S4x4096x8x8),
    TRef.ternary main_call3.v7 main_call3.call2.v0 main_call3.call1.v1 main_call3.call2.v1 select,
    binary main_v20 main_v5 main_v21 ((fun l r => Host.dotGeneral dot_S4x4096x8x8_S4x4096x8x64_S4x4096x8x64_3_2_2_3_01_01 none l r) : (⟨S4x4096x8x8, .f32⟩ : BufTy).Contents (Elt F) → (⟨S4x4096x8x64, .f32⟩ : BufTy).Contents (Elt F) → (⟨S4x4096x8x64, .f32⟩ : BufTy).Contents (Elt F)) ]

/-- The second group's. -/
def opsG1 : List (HloOp τ sig (Elt F)) :=
  [ unary main_v0 main_v22 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    unary main_v1 main_v23 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    unary main_v2 main_v24 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    binary main_v22 main_v23 main_v25 ((fun l r => Host.dotGeneral dot_S4x4096x8x64_S4x4096x8x64_S4x4096x8x8_3_3_2_2_01_01 none l r) : (⟨S4x4096x8x64, .f32⟩ : BufTy).Contents (Elt F) → (⟨S4x4096x8x64, .f32⟩ : BufTy).Contents (Elt F) → (⟨S4x4096x8x8, .f32⟩ : BufTy).Contents (Elt F)),
    nullary main_cst_5 (constant S_ .f32 0x3E000000#32),
    unary main_cst_5 main_v26 (broadcastInDim S4x4096x8x8 ![] bcast_S_S4x4096x8x8 : (⟨S_, .f32⟩ : BufTy).Contents (Elt F) → (⟨S4x4096x8x8, .f32⟩ : BufTy).Contents (Elt F)),
    binary main_v25 main_v26 main_v27 (mulf : (⟨S4x4096x8x8, .f32⟩ : BufTy).Contents (Elt F) → (⟨S4x4096x8x8, .f32⟩ : BufTy).Contents (Elt F) → (⟨S4x4096x8x8, .f32⟩ : BufTy).Contents (Elt F)),
    nullary main_cst_6 (constant S_ .f32 0xFF800000#32),
    binary main_v27 main_cst_6 main_v28 ((fun x v => Host.reduce FloatOps.maximumf x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    nullary main_cst_7 (constant S_ .f32 0xFF800000#32),
    unary main_cst_7 main_v29 (broadcastInDim S4x4096x8 ![] bcast_S_S4x4096x8 : (⟨S_, .f32⟩ : BufTy).Contents (Elt F) → (⟨S4x4096x8, .f32⟩ : BufTy).Contents (Elt F)),
    binary main_v29 main_v28 main_v30 (maximumf : (⟨S4x4096x8, .f32⟩ : BufTy).Contents (Elt F) → (⟨S4x4096x8, .f32⟩ : BufTy).Contents (Elt F) → (⟨S4x4096x8, .f32⟩ : BufTy).Contents (Elt F)),
    unary main_v30 main_v31 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    unary main_v31 main_v32 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    binary main_v27 main_v32 main_v33 (subf : (⟨S4x4096x8x8, .f32⟩ : BufTy).Contents (Elt F) → (⟨S4x4096x8x8, .f32⟩ : BufTy).Contents (Elt F) → (⟨S4x4096x8x8, .f32⟩ : BufTy).Contents (Elt F)),
    unary main_v33 main_v34 (Host.exp : (⟨S4x4096x8x8, .f32⟩ : BufTy).Contents (Elt F) → (⟨S4x4096x8x8, .f32⟩ : BufTy).Contents (Elt F)),
    nullary main_cst_8 (constant S_ .f32 0x00000000#32),
    binary main_v34 main_cst_8 main_v35 ((fun x v => Host.reduceAdd x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    unary main_v35 main_v36 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    unary main_v36 main_v37 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    binary main_v34 main_v37 main_v38 (Host.divf : (⟨S4x4096x8x8, .f32⟩ : BufTy).Contents (Elt F) → (⟨S4x4096x8x8, .f32⟩ : BufTy).Contents (Elt F) → (⟨S4x4096x8x8, .f32⟩ : BufTy).Contents (Elt F)),
    nullary main_cst_9 (constant S_ .f32 0x00000000#32),
    TRef.binary (.of main_v38 : TRef sig ⟨S4x4096x8x8, .f32⟩) (.of main_v38 : TRef sig ⟨S4x4096x8x8, .f32⟩) main_call4.v0 (cmpf .une),
    TRef.unary (.of main_cst_9 : TRef sig ⟨S_, .f32⟩) main_call4.v1 id,
    TRef.unary main_call4.v1 main_call4.call0.v0 (broadcastInDim S4x4096x8x8 ![] bcast_S_S4x4096x8x8),
    TRef.ternary main_call4.v0 main_call4.call0.v0 (.of main_v38 : TRef sig ⟨S4x4096x8x8, .f32⟩) main_call4.call0.v1 select,
    TRef.nullary main_call4.cst (constant S_ .f32 0x7F800000#32),
    TRef.unary main_call4.cst main_call4.v3 (broadcastInDim S4x4096x8x8 ![] bcast_S_S4x4096x8x8),
    TRef.binary main_call4.call0.v1 main_call4.v3 main_call4.v4 (cmpf .oeq),
    TRef.nullary main_call4.cst_0 (constant S_ .f32 0x7F7FFFFF#32),
    TRef.unary main_call4.cst_0 main_call4.call1.v0 (broadcastInDim S4x4096x8x8 ![] bcast_S_S4x4096x8x8),
    TRef.ternary main_call4.v4 main_call4.call1.v0 main_call4.call0.v1 main_call4.call1.v1 select,
    TRef.nullary main_call4.cst_1 (constant S_ .f32 0xFF800000#32),
    TRef.unary main_call4.cst_1 main_call4.v6 (broadcastInDim S4x4096x8x8 ![] bcast_S_S4x4096x8x8),
    TRef.binary main_call4.call1.v1 main_call4.v6 main_call4.v7 (cmpf .oeq),
    TRef.nullary main_call4.cst_2 (constant S_ .f32 0xFF7FFFFF#32),
    TRef.unary main_call4.cst_2 main_call4.call2.v0 (broadcastInDim S4x4096x8x8 ![] bcast_S_S4x4096x8x8),
    TRef.ternary main_call4.v7 main_call4.call2.v0 main_call4.call1.v1 main_call4.call2.v1 select,
    binary main_v39 main_v24 main_v40 ((fun l r => Host.dotGeneral dot_S4x4096x8x8_S4x4096x8x64_S4x4096x8x64_3_2_2_3_01_01 none l r) : (⟨S4x4096x8x8, .f32⟩ : BufTy).Contents (Elt F) → (⟨S4x4096x8x64, .f32⟩ : BufTy).Contents (Elt F) → (⟨S4x4096x8x64, .f32⟩ : BufTy).Contents (Elt F)) ]

/-- The two groups side by side, and the positions reordered by the backward table. -/
def opsE : List (HloOp τ sig (Elt F)) :=
  ( binary main_v21 main_v40 main_v41 ((fun a b => concatenate S4x4096x16x64 2 [⟨S4x4096x8x64, a⟩, ⟨S4x4096x8x64, b⟩] concatenates_S4x4096x8x64_S4x4096x8x64_S4x4096x16x64_d2) : (⟨S4x4096x8x64, .f32⟩ : BufTy).Contents (Elt F) → (⟨S4x4096x8x64, .f32⟩ : BufTy).Contents (Elt F) → (⟨S4x4096x16x64, .f32⟩ : BufTy).Contents (Elt F)) ) ::
  [ TRef.nullary main_call5.c (constantI S_ 32 0#32),
    TRef.unary main_call5.c main_call5.v0 (broadcastInDim S4096 ![] bcast_S_S4096),
    TRef.binary (.of main_c_0 : TRef sig ⟨S4096, .i32⟩) main_call5.v0 main_call5.v1 (cmpi .slt),
    TRef.nullary main_call5.c_0 (constantI S_ 32 4096#32),
    TRef.unary main_call5.c_0 main_call5.v2 (broadcastInDim S4096 ![] bcast_S_S4096),
    TRef.binary (.of main_c_0 : TRef sig ⟨S4096, .i32⟩) main_call5.v2 main_call5.v3 addi,
    TRef.ternary main_call5.v1 main_call5.v3 (.of main_c_0 : TRef sig ⟨S4096, .i32⟩) main_call5.call0.v0 select,
    TRef.unary main_call5.call0.v0 main_call5.v5 (broadcastInDim S4096x1 ![0] bcast_S4096_S4096x1_0),
    TRef.nullary main_call5.c_1 (constantI S1 32 4095#32),
    TRef.nullary main_call5.c_2 (constantI S_ 32 0#32),
    TRef.unary main_call5.c_2 main_call5.v6 (broadcastInDim S4096x1 ![] bcast_S_S4096x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S4096x1 ![0, 1] bcast_S1x1_S4096x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S4096x1_S4096_d1 h_S_),
    TRef.binary (.of main_v41 : TRef sig ⟨S4x4096x16x64, .f32⟩) main_call5.v5 main_call5.v13 (fun x i => Host.gather gather_S4x4096x16x64_S4096x1_S4x4096x16x64_023_1_n_n_1_1_411664 x i),
    TRef.unary main_call5.v12 main_call5.v14 (broadcastInDim S4x4096x16x64 ![1] bcast_S4096_S4x4096x16x64_1),
    TRef.nullary main_call5.cst (constant S_ .f32 0x7FC00000#32),
    TRef.unary main_call5.cst main_call5.v15 (broadcastInDim S4x4096x16x64 ![] bcast_S_S4x4096x16x64),
    TRef.ternary main_call5.v14 main_call5.v13 main_call5.v15 main_call5.v16 select ]

/-- @main's operations, in order. -/
def ops : List (HloOp τ sig (Elt F)) := opsC ++ opsT0 ++ opsT1 ++ opsT2 ++ opsG0 ++ opsG1 ++ opsE

set_option maxRecDepth 8192 in
/-- @main is that straight line: the functions' definitions unfolded at their calls and the records at their fields,
    both sides are one chain of steps once sequencing is reassociated. -/
theorem main_eq (c : Dev nD) : main (F := F) c = seq ops := by
  simp only [main, fn_take.body, fn_take_1.body, fn_where.body, fn_where_0.body, fn_nan_to_num.body,
    ops, opsC, opsT0, opsT1, opsT2, opsG0, opsG1, opsE, seq_append, seq, bind_assoc, pure_bind]

/-- What the buffers hold after two stretches is what they hold after the second, run from what they hold after the
    first. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

end Cert.ReferenceIdeal.RefValue.Line

end
-- ==== Proof.RRunT.lean ====
/-
  The tables' stretch and the three reorderings of the arguments.
  For each stretch: what its result buffer holds after it, as a function of the buffers it reads (each operation's
  result rewritten at the buffer it writes, the other buffers' contents carried through, and the composed term compared
  with the named function by computation); that it leaves alone the buffers later stretches read; that it touches
  TensorCore references only; and that every operation of it determines its result.
-/
import proofs.«162543_j4784593568285_1_alg».proof.Proof.RRunOps

noncomputable section

namespace Cert.ReferenceIdeal.RefValue.Line

open Cert.ReferenceIdeal Cert.ReferenceIdeal.Gen Idealize.ShloMosaic Idealize.ShloMosaic.TcCoe Idealize.SL.Sem Idealize.ShloMosaic.StableHlo

variable {F : FTy → Type} [FloatOps F]

/-! ## The tables -/

theorem c_c (V : Valuation τ sig (Elt F)) : after opsC V (main_c : DevRef τ sig) = hilT := by
  simp only [opsC]
  after_results_simp
  rfl
theorem c_c_0 (V : Valuation τ sig (Elt F)) : after opsC V (main_c_0 : DevRef τ sig) = invT := by
  simp only [opsC]
  after_results_simp
  rfl
theorem c_arg0 (V : Valuation τ sig (Elt F)) : after opsC V (main_arg0 : DevRef τ sig) = V (main_arg0 : DevRef τ sig) := by
  simp only [opsC]
  after_results_simp
theorem c_arg1 (V : Valuation τ sig (Elt F)) : after opsC V (main_arg1 : DevRef τ sig) = V (main_arg1 : DevRef τ sig) := by
  simp only [opsC]
  after_results_simp
theorem c_arg2 (V : Valuation τ sig (Elt F)) : after opsC V (main_arg2 : DevRef τ sig) = V (main_arg2 : DevRef τ sig) := by
  simp only [opsC]
  after_results_simp
theorem c_sub : (opsC : List (HloOp τ sig (Elt F))).Forall fun op => op.bufs ⊆ tcRefs τ sig :=
  ⟨nullary_bufs_sub .., nullary_bufs_sub ..⟩
theorem c_fresh : ∀ op ∈ (opsC : List (HloOp τ sig (Elt F))), op.fresh = ∅ := by
  intro _ h; unfold opsC at h; (repeat (cases h with | head => rfl | tail _ h => ?_)); exact nomatch h

/-! ## The three reorderings of the arguments

The reductions and the gather stay folded while the two sides are compared: the equation never looks inside them. -/

attribute [local irreducible] Host.reduce Host.gather

set_option maxRecDepth 8192 in
set_option maxHeartbeats 400000 in
theorem t0_out (V : Valuation τ sig (Elt F)) :
    after opsT0 V (main_v0 : DevRef τ sig) = takeV (V (main_arg0 : DevRef τ sig)) (V (main_c : DevRef τ sig)) := by
  simp only [opsT0]
  after_results_simp
  rfl
theorem t0_arg0 (V : Valuation τ sig (Elt F)) : after opsT0 V (main_arg0 : DevRef τ sig) = V (main_arg0 : DevRef τ sig) := by
  simp only [opsT0]
  after_results_simp
theorem t0_arg1 (V : Valuation τ sig (Elt F)) : after opsT0 V (main_arg1 : DevRef τ sig) = V (main_arg1 : DevRef τ sig) := by
  simp only [opsT0]
  after_results_simp
theorem t0_arg2 (V : Valuation τ sig (Elt F)) : after opsT0 V (main_arg2 : DevRef τ sig) = V (main_arg2 : DevRef τ sig) := by
  simp only [opsT0]
  after_results_simp
theorem t0_c (V : Valuation τ sig (Elt F)) : after opsT0 V (main_c : DevRef τ sig) = V (main_c : DevRef τ sig) := by
  simp only [opsT0]
  after_results_simp
theorem t0_c_0 (V : Valuation τ sig (Elt F)) : after opsT0 V (main_c_0 : DevRef τ sig) = V (main_c_0 : DevRef τ sig) := by
  simp only [opsT0]
  after_results_simp
theorem t0_sub : (opsT0 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem t0_fresh : ∀ op ∈ (opsT0 : List (HloOp τ sig (Elt F))), op.fresh = ∅ := by
  intro _ h; unfold opsT0 at h; (repeat (cases h with | head => rfl | tail _ h => ?_)); exact nomatch h

set_option maxRecDepth 8192 in
set_option maxHeartbeats 400000 in
theorem t1_out (V : Valuation τ sig (Elt F)) :
    after opsT1 V (main_v1 : DevRef τ sig) = takeV (V (main_arg1 : DevRef τ sig)) (V (main_c : DevRef τ sig)) := by
  simp only [opsT1]
  after_results_simp
  rfl
theorem t1_arg0 (V : Valuation τ sig (Elt F)) : after opsT1 V (main_arg0 : DevRef τ sig) = V (main_arg0 : DevRef τ sig) := by
  simp only [opsT1]
  after_results_simp
theorem t1_arg1 (V : Valuation τ sig (Elt F)) : after opsT1 V (main_arg1 : DevRef τ sig) = V (main_arg1 : DevRef τ sig) := by
  simp only [opsT1]
  after_results_simp
theorem t1_arg2 (V : Valuation τ sig (Elt F)) : after opsT1 V (main_arg2 : DevRef τ sig) = V (main_arg2 : DevRef τ sig) := by
  simp only [opsT1]
  after_results_simp
theorem t1_c (V : Valuation τ sig (Elt F)) : after opsT1 V (main_c : DevRef τ sig) = V (main_c : DevRef τ sig) := by
  simp only [opsT1]
  after_results_simp
theorem t1_c_0 (V : Valuation τ sig (Elt F)) : after opsT1 V (main_c_0 : DevRef τ sig) = V (main_c_0 : DevRef τ sig) := by
  simp only [opsT1]
  after_results_simp
theorem t1_v0 (V : Valuation τ sig (Elt F)) : after opsT1 V (main_v0 : DevRef τ sig) = V (main_v0 : DevRef τ sig) := by
  simp only [opsT1]
  after_results_simp
theorem t1_sub : (opsT1 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem t1_fresh : ∀ op ∈ (opsT1 : List (HloOp τ sig (Elt F))), op.fresh = ∅ := by
  intro _ h; unfold opsT1 at h; (repeat (cases h with | head => rfl | tail _ h => ?_)); exact nomatch h

set_option maxRecDepth 8192 in
set_option maxHeartbeats 400000 in
theorem t2_out (V : Valuation τ sig (Elt F)) :
    after opsT2 V (main_v2 : DevRef τ sig) = takeV (V (main_arg2 : DevRef τ sig)) (V (main_c : DevRef τ sig)) := by
  simp only [opsT2]
  after_results_simp
  rfl
theorem t2_arg0 (V : Valuation τ sig (Elt F)) : after opsT2 V (main_arg0 : DevRef τ sig) = V (main_arg0 : DevRef τ sig) := by
  simp only [opsT2]
  after_results_simp
theorem t2_arg1 (V : Valuation τ sig (Elt F)) : after opsT2 V (main_arg1 : DevRef τ sig) = V (main_arg1 : DevRef τ sig) := by
  simp only [opsT2]
  after_results_simp
theorem t2_arg2 (V : Valuation τ sig (Elt F)) : after opsT2 V (main_arg2 : DevRef τ sig) = V (main_arg2 : DevRef τ sig) := by
  simp only [opsT2]
  after_results_simp
theorem t2_c_0 (V : Valuation τ sig (Elt F)) : after opsT2 V (main_c_0 : DevRef τ sig) = V (main_c_0 : DevRef τ sig) := by
  simp only [opsT2]
  after_results_simp
theorem t2_v0 (V : Valuation τ sig (Elt F)) : after opsT2 V (main_v0 : DevRef τ sig) = V (main_v0 : DevRef τ sig) := by
  simp only [opsT2]
  after_results_simp
theorem t2_v1 (V : Valuation τ sig (Elt F)) : after opsT2 V (main_v1 : DevRef τ sig) = V (main_v1 : DevRef τ sig) := by
  simp only [opsT2]
  after_results_simp
theorem t2_sub : (opsT2 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem t2_fresh : ∀ op ∈ (opsT2 : List (HloOp τ sig (Elt F))), op.fresh = ∅ := by
  intro _ h; unfold opsT2 at h; (repeat (cases h with | head => rfl | tail _ h => ?_)); exact nomatch h

end Cert.ReferenceIdeal.RefValue.Line

end
-- ==== Proof.RRunG0.lean ====
/-
  The first group's stretch.
  For each stretch: what its result buffer holds after it, as a function of the buffers it reads (each operation's
  result rewritten at the buffer it writes, the other buffers' contents carried through, and the composed term compared
  with the named function by computation); that it leaves alone the buffers later stretches read; that it touches
  TensorCore references only; and that every operation of it determines its result.
-/
import proofs.«162543_j4784593568285_1_alg».proof.Proof.RRunOps

noncomputable section

namespace Cert.ReferenceIdeal.RefValue.Line

open Cert.ReferenceIdeal Cert.ReferenceIdeal.Gen Idealize.ShloMosaic Idealize.ShloMosaic.TcCoe Idealize.SL.Sem Idealize.ShloMosaic.StableHlo

variable {F : FTy → Type} [FloatOps F]

/-! The reductions stay folded while the two sides are compared: the equation never looks inside them. -/

attribute [local irreducible] Host.reduce Host.reduceAdd

set_option maxRecDepth 8192 in
set_option maxHeartbeats 800000 in
theorem g0_out (V : Valuation τ sig (Elt F)) :
    after opsG0 V (main_v21 : DevRef τ sig)
      = headsV (sliceLo (V (main_v0 : DevRef τ sig))) (sliceLo (V (main_v1 : DevRef τ sig))) (sliceLo (V (main_v2 : DevRef τ sig))) := by
  simp only [opsG0]
  after_results_simp
  rfl
theorem g0_arg0 (V : Valuation τ sig (Elt F)) : after opsG0 V (main_arg0 : DevRef τ sig) = V (main_arg0 : DevRef τ sig) := by
  simp only [opsG0]
  after_results_simp
theorem g0_arg1 (V : Valuation τ sig (Elt F)) : after opsG0 V (main_arg1 : DevRef τ sig) = V (main_arg1 : DevRef τ sig) := by
  simp only [opsG0]
  after_results_simp
theorem g0_arg2 (V : Valuation τ sig (Elt F)) : after opsG0 V (main_arg2 : DevRef τ sig) = V (main_arg2 : DevRef τ sig) := by
  simp only [opsG0]
  after_results_simp
theorem g0_c_0 (V : Valuation τ sig (Elt F)) : after opsG0 V (main_c_0 : DevRef τ sig) = V (main_c_0 : DevRef τ sig) := by
  simp only [opsG0]
  after_results_simp
theorem g0_v0 (V : Valuation τ sig (Elt F)) : after opsG0 V (main_v0 : DevRef τ sig) = V (main_v0 : DevRef τ sig) := by
  simp only [opsG0]
  after_results_simp
theorem g0_v1 (V : Valuation τ sig (Elt F)) : after opsG0 V (main_v1 : DevRef τ sig) = V (main_v1 : DevRef τ sig) := by
  simp only [opsG0]
  after_results_simp
theorem g0_v2 (V : Valuation τ sig (Elt F)) : after opsG0 V (main_v2 : DevRef τ sig) = V (main_v2 : DevRef τ sig) := by
  simp only [opsG0]
  after_results_simp
theorem g0_sub : (opsG0 : List (HloOp τ sig (Elt F))).Forall fun op => op.bufs ⊆ tcRefs τ sig :=
  ⟨unary_bufs_sub .., unary_bufs_sub .., unary_bufs_sub .., binary_bufs_sub .., nullary_bufs_sub ..,
    unary_bufs_sub .., binary_bufs_sub .., nullary_bufs_sub .., binary_bufs_sub .., nullary_bufs_sub ..,
    unary_bufs_sub .., binary_bufs_sub .., unary_bufs_sub .., unary_bufs_sub .., binary_bufs_sub ..,
    unary_bufs_sub .., nullary_bufs_sub .., binary_bufs_sub .., unary_bufs_sub .., unary_bufs_sub ..,
    binary_bufs_sub .., nullary_bufs_sub .., binary_bufs_sub .., unary_bufs_sub .., unary_bufs_sub ..,
    ternary_bufs_sub .., nullary_bufs_sub .., unary_bufs_sub .., binary_bufs_sub .., nullary_bufs_sub ..,
    unary_bufs_sub .., ternary_bufs_sub .., nullary_bufs_sub .., unary_bufs_sub .., binary_bufs_sub ..,
    nullary_bufs_sub .., unary_bufs_sub .., ternary_bufs_sub .., binary_bufs_sub ..⟩
theorem g0_fresh : ∀ op ∈ (opsG0 : List (HloOp τ sig (Elt F))), op.fresh = ∅ := by
  intro _ h; unfold opsG0 at h; (repeat (cases h with | head => rfl | tail _ h => ?_)); exact nomatch h

end Cert.ReferenceIdeal.RefValue.Line

end
-- ==== Proof.RRunG1.lean ====
/-
  The second group's stretch.
  For each stretch: what its result buffer holds after it, as a function of the buffers it reads (each operation's
  result rewritten at the buffer it writes, the other buffers' contents carried through, and the composed term compared
  with the named function by computation); that it leaves alone the buffers later stretches read; that it touches
  TensorCore references only; and that every operation of it determines its result.
-/
import proofs.«162543_j4784593568285_1_alg».proof.Proof.RRunOps

noncomputable section

namespace Cert.ReferenceIdeal.RefValue.Line

open Cert.ReferenceIdeal Cert.ReferenceIdeal.Gen Idealize.ShloMosaic Idealize.ShloMosaic.TcCoe Idealize.SL.Sem Idealize.ShloMosaic.StableHlo

variable {F : FTy → Type} [FloatOps F]

/-! The reductions stay folded while the two sides are compared: the equation never looks inside them. -/

attribute [local irreducible] Host.reduce Host.reduceAdd

set_option maxRecDepth 8192 in
set_option maxHeartbeats 800000 in
theorem g1_out (V : Valuation τ sig (Elt F)) :
    after opsG1 V (main_v40 : DevRef τ sig)
      = headsV (sliceHi (V (main_v0 : DevRef τ sig))) (sliceHi (V (main_v1 : DevRef τ sig))) (sliceHi (V (main_v2 : DevRef τ sig))) := by
  simp only [opsG1]
  after_results_simp
  rfl
theorem g1_arg0 (V : Valuation τ sig (Elt F)) : after opsG1 V (main_arg0 : DevRef τ sig) = V (main_arg0 : DevRef τ sig) := by
  simp only [opsG1]
  after_results_simp
theorem g1_arg1 (V : Valuation τ sig (Elt F)) : after opsG1 V (main_arg1 : DevRef τ sig) = V (main_arg1 : DevRef τ sig) := by
  simp only [opsG1]
  after_results_simp
theorem g1_arg2 (V : Valuation τ sig (Elt F)) : after opsG1 V (main_arg2 : DevRef τ sig) = V (main_arg2 : DevRef τ sig) := by
  simp only [opsG1]
  after_results_simp
theorem g1_c_0 (V : Valuation τ sig (Elt F)) : after opsG1 V (main_c_0 : DevRef τ sig) = V (main_c_0 : DevRef τ sig) := by
  simp only [opsG1]
  after_results_simp
theorem g1_v21 (V : Valuation τ sig (Elt F)) : after opsG1 V (main_v21 : DevRef τ sig) = V (main_v21 : DevRef τ sig) := by
  simp only [opsG1]
  after_results_simp
theorem g1_sub : (opsG1 : List (HloOp τ sig (Elt F))).Forall fun op => op.bufs ⊆ tcRefs τ sig :=
  ⟨unary_bufs_sub .., unary_bufs_sub .., unary_bufs_sub .., binary_bufs_sub .., nullary_bufs_sub ..,
    unary_bufs_sub .., binary_bufs_sub .., nullary_bufs_sub .., binary_bufs_sub .., nullary_bufs_sub ..,
    unary_bufs_sub .., binary_bufs_sub .., unary_bufs_sub .., unary_bufs_sub .., binary_bufs_sub ..,
    unary_bufs_sub .., nullary_bufs_sub .., binary_bufs_sub .., unary_bufs_sub .., unary_bufs_sub ..,
    binary_bufs_sub .., nullary_bufs_sub .., binary_bufs_sub .., unary_bufs_sub .., unary_bufs_sub ..,
    ternary_bufs_sub .., nullary_bufs_sub .., unary_bufs_sub .., binary_bufs_sub .., nullary_bufs_sub ..,
    unary_bufs_sub .., ternary_bufs_sub .., nullary_bufs_sub .., unary_bufs_sub .., binary_bufs_sub ..,
    nullary_bufs_sub .., unary_bufs_sub .., ternary_bufs_sub .., binary_bufs_sub ..⟩
theorem g1_fresh : ∀ op ∈ (opsG1 : List (HloOp τ sig (Elt F))), op.fresh = ∅ := by
  intro _ h; unfold opsG1 at h; (repeat (cases h with | head => rfl | tail _ h => ?_)); exact nomatch h

end Cert.ReferenceIdeal.RefValue.Line

end
-- ==== Proof.RRunE.lean ====
/-
  The last stretch: the groups side by side and the reordering back.
  For each stretch: what its result buffer holds after it, as a function of the buffers it reads (each operation's
  result rewritten at the buffer it writes, the other buffers' contents carried through, and the composed term compared
  with the named function by computation); that it leaves alone the buffers later stretches read; that it touches
  TensorCore references only; and that every operation of it determines its result.
-/
import proofs.«162543_j4784593568285_1_alg».proof.Proof.RRunOps

noncomputable section

namespace Cert.ReferenceIdeal.RefValue.Line

open Cert.ReferenceIdeal Cert.ReferenceIdeal.Gen Idealize.ShloMosaic Idealize.ShloMosaic.TcCoe Idealize.SL.Sem Idealize.ShloMosaic.StableHlo

variable {F : FTy → Type} [FloatOps F]

/-! The reduction, the gather and the concatenation stay folded while the two sides are compared. -/

attribute [local irreducible] Host.reduce Host.gather concatenate

set_option maxRecDepth 8192 in
set_option maxHeartbeats 400000 in
theorem e_out (V : Valuation τ sig (Elt F)) :
    after opsE V (main_v42 : DevRef τ sig)
      = takeV (concatenate S4x4096x16x64 2
          [⟨S4x4096x8x64, V (main_v21 : DevRef τ sig)⟩, ⟨S4x4096x8x64, V (main_v40 : DevRef τ sig)⟩]
          concatenates_S4x4096x8x64_S4x4096x8x64_S4x4096x16x64_d2) (V (main_c_0 : DevRef τ sig)) := by
  simp only [opsE]
  after_results_simp
  rfl
theorem e_arg0 (V : Valuation τ sig (Elt F)) : after opsE V (main_arg0 : DevRef τ sig) = V (main_arg0 : DevRef τ sig) := by
  simp only [opsE]
  after_results_simp
theorem e_arg1 (V : Valuation τ sig (Elt F)) : after opsE V (main_arg1 : DevRef τ sig) = V (main_arg1 : DevRef τ sig) := by
  simp only [opsE]
  after_results_simp
theorem e_arg2 (V : Valuation τ sig (Elt F)) : after opsE V (main_arg2 : DevRef τ sig) = V (main_arg2 : DevRef τ sig) := by
  simp only [opsE]
  after_results_simp
theorem e_sub : (opsE : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    unary_bufs_sub .., nullary_bufs_sub .., unary_bufs_sub .., ternary_bufs_sub ..⟩
theorem e_fresh : ∀ op ∈ (opsE : List (HloOp τ sig (Elt F))), op.fresh = ∅ := by
  intro _ h; unfold opsE at h; (repeat (cases h with | head => rfl | tail _ h => ?_)); exact nomatch h

end Cert.ReferenceIdeal.RefValue.Line

end
-- ==== Proof.RRun.lean ====
/-
  The reference program's run: its @main is a straight line of host operations (the outlined functions' bodies at their
  calls), so every execution ends with each buffer at the operations' composed value; the result buffer's is the
  composition of takes, groups' attention and concatenation named in the definitions module.

  The line is cut into consecutive stretches. What the buffers hold after the whole line is what they hold after each
  stretch in turn; per stretch one equation says what its result buffer holds as a function of the buffers it reads, and
  one equation per buffer a later stretch reads says that the stretch leaves it alone. Here the equations are chained
  from the last stretch back to the tables.
-/
import proofs.«162543_j4784593568285_1_alg».proof.Defs
import proofs.«162543_j4784593568285_1_alg».proof.Proof.RefDefs
import proofs.«162543_j4784593568285_1_alg».proof.Proof.RRunOps
import proofs.«162543_j4784593568285_1_alg».proof.Proof.RRunT
import proofs.«162543_j4784593568285_1_alg».proof.Proof.RRunG0
import proofs.«162543_j4784593568285_1_alg».proof.Proof.RRunG1
import proofs.«162543_j4784593568285_1_alg».proof.Proof.RRunE
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

namespace Line

variable {F : FTy → Type} [FloatOps F]

/-! ## The whole line -/

/-- The result buffer after the whole line: each stretch's equation in turn, from the last stretch back to the
    tables. -/
theorem out_eq (V : Valuation τ sig (Elt F)) :
    after ops V (main_v42 : DevRef τ sig)
      = refVal (V (main_arg0 : DevRef τ sig)) (V (main_arg1 : DevRef τ sig)) (V (main_arg2 : DevRef τ sig)) := by
  unfold ops
  rw [after_concat, after_concat, after_concat, after_concat, after_concat, after_concat,
    e_out, g1_v21, g1_out, g1_c_0, g0_out, g0_v0, g0_v1, g0_v2, g0_c_0,
    t2_out, t2_v0, t2_v1, t2_c_0, t1_out, t1_v0, t1_arg2, t1_c, t1_c_0, t0_out, t0_arg1, t0_arg2, t0_c, t0_c_0,
    c_c, c_c_0, c_arg0, c_arg1, c_arg2]
  rfl

theorem arg0_eq (V : Valuation τ sig (Elt F)) : after ops V (main_arg0 : DevRef τ sig) = V (main_arg0 : DevRef τ sig) := by
  unfold ops
  rw [after_concat, after_concat, after_concat, after_concat, after_concat, after_concat,
    e_arg0, g1_arg0, g0_arg0, t2_arg0, t1_arg0, t0_arg0, c_arg0]
theorem arg1_eq (V : Valuation τ sig (Elt F)) : after ops V (main_arg1 : DevRef τ sig) = V (main_arg1 : DevRef τ sig) := by
  unfold ops
  rw [after_concat, after_concat, after_concat, after_concat, after_concat, after_concat,
    e_arg1, g1_arg1, g0_arg1, t2_arg1, t1_arg1, t0_arg1, c_arg1]
theorem arg2_eq (V : Valuation τ sig (Elt F)) : after ops V (main_arg2 : DevRef τ sig) = V (main_arg2 : DevRef τ sig) := by
  unfold ops
  rw [after_concat, after_concat, after_concat, after_concat, after_concat, after_concat,
    e_arg2, g1_arg2, g0_arg2, t2_arg2, t1_arg2, t0_arg2, c_arg2]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: stretch by stretch. -/
theorem ops_sub : (ops : List (HloOp τ sig (Elt F))).Forall fun op => op.bufs ⊆ tcRefs τ sig := by
  rw [List.forall_iff_forall_mem]
  intro op h
  unfold ops at h
  simp only [List.mem_append] at h
  rcases h with (((((h | h) | h) | h) | h) | h) | h
  · exact List.forall_iff_forall_mem.mp c_sub op h
  · exact List.forall_iff_forall_mem.mp t0_sub op h
  · exact List.forall_iff_forall_mem.mp t1_sub op h
  · exact List.forall_iff_forall_mem.mp t2_sub op h
  · exact List.forall_iff_forall_mem.mp g0_sub op h
  · exact List.forall_iff_forall_mem.mp g1_sub op h
  · exact List.forall_iff_forall_mem.mp e_sub op h

/-- Every operation of the line determines its results. -/
theorem ops_fresh : ∀ op ∈ (ops : List (HloOp τ sig (Elt F))), op.fresh = ∅ := by
  intro op h
  unfold ops at h
  simp only [List.mem_append] at h
  rcases h with (((((h | h) | h) | h) | h) | h) | h
  · exact c_fresh op h
  · exact t0_fresh op h
  · exact t1_fresh op h
  · exact t2_fresh op h
  · exact g0_fresh op h
  · exact g1_fresh op h
  · exact e_fresh op h

end Line

open Line

/-- The idealized reference's run: it ends with its result at the composed term of its three arguments, which it leaves
    as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
          = refVal (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v42).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ (fun _ => ops_fresh))

end Cert.ReferenceIdeal.RefValue

end
-- ==== Proof.RDots.lean ====
/-
  The reference's two batched products read at an index.
-/
import proofs.«162543_j4784593568285_1_alg».proof.Proof.RefDefs
import proofs.«162543_j4784593568285_1_alg».proof.Proof.AttnSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Cert.AttnSpec

/-! ## The scores' product: q-heads by k-heads over the sixty-four coordinates, one batch and position at a time -/

/-- The operand indices of the scores' product, axis by axis: the two batch axes and the free axis read the result
    index, the contracted axis reads the contraction index. -/
theorem lhsQK_0 (j : S4x4096x8x8.Idx) (k : dot_S4x4096x8x64_S4x4096x8x64_S4x4096x8x8_3_3_2_2_01_01.contr.Idx) :
    (dot_S4x4096x8x64_S4x4096x8x64_S4x4096x8x8_3_3_2_2_01_01.lhsIdx j k 0).val = (j 0).val := rfl
theorem lhsQK_1 (j : S4x4096x8x8.Idx) (k : dot_S4x4096x8x64_S4x4096x8x64_S4x4096x8x8_3_3_2_2_01_01.contr.Idx) :
    (dot_S4x4096x8x64_S4x4096x8x64_S4x4096x8x8_3_3_2_2_01_01.lhsIdx j k 1).val = (j 1).val := rfl
theorem lhsQK_2 (j : S4x4096x8x8.Idx) (k : dot_S4x4096x8x64_S4x4096x8x64_S4x4096x8x8_3_3_2_2_01_01.contr.Idx) :
    (dot_S4x4096x8x64_S4x4096x8x64_S4x4096x8x8_3_3_2_2_01_01.lhsIdx j k 2).val = (j 2).val := rfl
theorem lhsQK_3 (j : S4x4096x8x8.Idx) (k : dot_S4x4096x8x64_S4x4096x8x64_S4x4096x8x8_3_3_2_2_01_01.contr.Idx) :
    (dot_S4x4096x8x64_S4x4096x8x64_S4x4096x8x8_3_3_2_2_01_01.lhsIdx j k 3).val = (k ⟨0, by decide⟩).val := rfl
theorem rhsQK_0 (j : S4x4096x8x8.Idx) (k : dot_S4x4096x8x64_S4x4096x8x64_S4x4096x8x8_3_3_2_2_01_01.contr.Idx) :
    (dot_S4x4096x8x64_S4x4096x8x64_S4x4096x8x8_3_3_2_2_01_01.rhsIdx j k 0).val = (j 0).val := rfl
theorem rhsQK_1 (j : S4x4096x8x8.Idx) (k : dot_S4x4096x8x64_S4x4096x8x64_S4x4096x8x8_3_3_2_2_01_01.contr.Idx) :
    (dot_S4x4096x8x64_S4x4096x8x64_S4x4096x8x8_3_3_2_2_01_01.rhsIdx j k 1).val = (j 1).val := rfl
theorem rhsQK_2 (j : S4x4096x8x8.Idx) (k : dot_S4x4096x8x64_S4x4096x8x64_S4x4096x8x8_3_3_2_2_01_01.contr.Idx) :
    (dot_S4x4096x8x64_S4x4096x8x64_S4x4096x8x8_3_3_2_2_01_01.rhsIdx j k 2).val = (j 3).val := rfl
theorem rhsQK_3 (j : S4x4096x8x8.Idx) (k : dot_S4x4096x8x64_S4x4096x8x64_S4x4096x8x8_3_3_2_2_01_01.contr.Idx) :
    (dot_S4x4096x8x64_S4x4096x8x64_S4x4096x8x8_3_3_2_2_01_01.rhsIdx j k 3).val = (k ⟨0, by decide⟩).val := rfl

/-- At result index (b, s, i, j) and coordinate e the left operand is read at (b, s, i, e) … -/
theorem lhsQK_idx (b : Fin 4) (s : Fin 4096) (i j : Fin 8) (e : Fin 64) :
    dot_S4x4096x8x64_S4x4096x8x64_S4x4096x8x8_3_3_2_2_01_01.lhsIdx (ix4 b s i j)
        ((contrEquiv1 dot_S4x4096x8x64_S4x4096x8x64_S4x4096x8x8_3_3_2_2_01_01 64 rfl rfl).symm e) = ix4 b s i e := by
  funext a
  match a with
  | ⟨0, _⟩ => exact Fin.ext (lhsQK_0 _ _)
  | ⟨1, _⟩ => exact Fin.ext (lhsQK_1 _ _)
  | ⟨2, _⟩ => exact Fin.ext (lhsQK_2 _ _)
  | ⟨3, _⟩ => exact Fin.ext ((lhsQK_3 _ _).trans (contrEquiv1_symm_val _ _ _ _ e))

/-- … and the right operand at (b, s, j, e). -/
theorem rhsQK_idx (b : Fin 4) (s : Fin 4096) (i j : Fin 8) (e : Fin 64) :
    dot_S4x4096x8x64_S4x4096x8x64_S4x4096x8x8_3_3_2_2_01_01.rhsIdx (ix4 b s i j)
        ((contrEquiv1 dot_S4x4096x8x64_S4x4096x8x64_S4x4096x8x8_3_3_2_2_01_01 64 rfl rfl).symm e) = ix4 b s j e := by
  funext a
  match a with
  | ⟨0, _⟩ => exact Fin.ext (rhsQK_0 _ _)
  | ⟨1, _⟩ => exact Fin.ext (rhsQK_1 _ _)
  | ⟨2, _⟩ => exact Fin.ext (rhsQK_2 _ _)
  | ⟨3, _⟩ => exact Fin.ext ((rhsQK_3 _ _).trans (contrEquiv1_symm_val _ _ _ _ e))

/-- Score (i, j) at batch b, position s: the inner product of q-head i with k-head j there, times 1/8. -/
theorem scoresV_apply (qs ks : FVec Ideal S4x4096x8x64 .f32) (b : Fin 4) (s : Fin 4096) (i j : Fin 8) :
    scoresV qs ks (ix4 b s i j) = score (fun i' e => qs (ix4 b s i' e)) (fun j' e => ks (ix4 b s j' e)) i j := by
  unfold scoresV score
  rw [mulf_apply]
  show _ * Ideal.ofBits .f32 0x3E000000#32 = _
  congr 1
  simp only [Host.dotGeneral]
  rw [Ideal.dotGeneral_apply,
    ← Equiv.sum_comp (contrEquiv1 dot_S4x4096x8x64_S4x4096x8x64_S4x4096x8x8_3_3_2_2_01_01 64 rfl rfl).symm]
  refine Finset.sum_congr rfl fun e _ => ?_
  rw [lhsQK_idx, rhsQK_idx]

/-! ## The weighted sum's product: weights by v-heads over the eight heads of the group -/

/-- The operand indices of the weighted sum's product, axis by axis. -/
theorem lhsWV_0 (j : S4x4096x8x64.Idx) (k : dot_S4x4096x8x8_S4x4096x8x64_S4x4096x8x64_3_2_2_3_01_01.contr.Idx) :
    (dot_S4x4096x8x8_S4x4096x8x64_S4x4096x8x64_3_2_2_3_01_01.lhsIdx j k 0).val = (j 0).val := rfl
theorem lhsWV_1 (j : S4x4096x8x64.Idx) (k : dot_S4x4096x8x8_S4x4096x8x64_S4x4096x8x64_3_2_2_3_01_01.contr.Idx) :
    (dot_S4x4096x8x8_S4x4096x8x64_S4x4096x8x64_3_2_2_3_01_01.lhsIdx j k 1).val = (j 1).val := rfl
theorem lhsWV_2 (j : S4x4096x8x64.Idx) (k : dot_S4x4096x8x8_S4x4096x8x64_S4x4096x8x64_3_2_2_3_01_01.contr.Idx) :
    (dot_S4x4096x8x8_S4x4096x8x64_S4x4096x8x64_3_2_2_3_01_01.lhsIdx j k 2).val = (j 2).val := rfl
theorem lhsWV_3 (j : S4x4096x8x64.Idx) (k : dot_S4x4096x8x8_S4x4096x8x64_S4x4096x8x64_3_2_2_3_01_01.contr.Idx) :
    (dot_S4x4096x8x8_S4x4096x8x64_S4x4096x8x64_3_2_2_3_01_01.lhsIdx j k 3).val = (k ⟨0, by decide⟩).val := rfl
theorem rhsWV_0 (j : S4x4096x8x64.Idx) (k : dot_S4x4096x8x8_S4x4096x8x64_S4x4096x8x64_3_2_2_3_01_01.contr.Idx) :
    (dot_S4x4096x8x8_S4x4096x8x64_S4x4096x8x64_3_2_2_3_01_01.rhsIdx j k 0).val = (j 0).val := rfl
theorem rhsWV_1 (j : S4x4096x8x64.Idx) (k : dot_S4x4096x8x8_S4x4096x8x64_S4x4096x8x64_3_2_2_3_01_01.contr.Idx) :
    (dot_S4x4096x8x8_S4x4096x8x64_S4x4096x8x64_3_2_2_3_01_01.rhsIdx j k 1).val = (j 1).val := rfl
theorem rhsWV_2 (j : S4x4096x8x64.Idx) (k : dot_S4x4096x8x8_S4x4096x8x64_S4x4096x8x64_3_2_2_3_01_01.contr.Idx) :
    (dot_S4x4096x8x8_S4x4096x8x64_S4x4096x8x64_3_2_2_3_01_01.rhsIdx j k 2).val = (k ⟨0, by decide⟩).val := rfl
theorem rhsWV_3 (j : S4x4096x8x64.Idx) (k : dot_S4x4096x8x8_S4x4096x8x64_S4x4096x8x64_3_2_2_3_01_01.contr.Idx) :
    (dot_S4x4096x8x8_S4x4096x8x64_S4x4096x8x64_3_2_2_3_01_01.rhsIdx j k 3).val = (j 3).val := rfl

/-- At result index (b, s, i, d) and head j the weights are read at (b, s, i, j) … -/
theorem lhsWV_idx (b : Fin 4) (s : Fin 4096) (i : Fin 8) (d : Fin 64) (j : Fin 8) :
    dot_S4x4096x8x8_S4x4096x8x64_S4x4096x8x64_3_2_2_3_01_01.lhsIdx (ix4 b s i d)
        ((contrEquiv1 dot_S4x4096x8x8_S4x4096x8x64_S4x4096x8x64_3_2_2_3_01_01 8 rfl rfl).symm j) = ix4 b s i j := by
  funext a
  match a with
  | ⟨0, _⟩ => exact Fin.ext (lhsWV_0 _ _)
  | ⟨1, _⟩ => exact Fin.ext (lhsWV_1 _ _)
  | ⟨2, _⟩ => exact Fin.ext (lhsWV_2 _ _)
  | ⟨3, _⟩ => exact Fin.ext ((lhsWV_3 _ _).trans (contrEquiv1_symm_val _ _ _ _ j))

/-- … and the v-heads at (b, s, j, d). -/
theorem rhsWV_idx (b : Fin 4) (s : Fin 4096) (i : Fin 8) (d : Fin 64) (j : Fin 8) :
    dot_S4x4096x8x8_S4x4096x8x64_S4x4096x8x64_3_2_2_3_01_01.rhsIdx (ix4 b s i d)
        ((contrEquiv1 dot_S4x4096x8x8_S4x4096x8x64_S4x4096x8x64_3_2_2_3_01_01 8 rfl rfl).symm j) = ix4 b s j d := by
  funext a
  match a with
  | ⟨0, _⟩ => exact Fin.ext (rhsWV_0 _ _)
  | ⟨1, _⟩ => exact Fin.ext (rhsWV_1 _ _)
  | ⟨2, _⟩ => exact Fin.ext ((rhsWV_2 _ _).trans (contrEquiv1_symm_val _ _ _ _ j))
  | ⟨3, _⟩ => exact Fin.ext (rhsWV_3 _ _)

/-- The weighted sum of the v-heads at batch b, position s. -/
theorem dotWV_apply (w : FVec Ideal S4x4096x8x8 .f32) (vs : FVec Ideal S4x4096x8x64 .f32) (b : Fin 4) (s : Fin 4096) (i : Fin 8) (d : Fin 64) :
    Host.dotGeneral dot_S4x4096x8x8_S4x4096x8x64_S4x4096x8x64_3_2_2_3_01_01 none w vs (ix4 b s i d)
      = ∑ j : Fin 8, w (ix4 b s i j) * vs (ix4 b s j d) := by
  simp only [Host.dotGeneral]
  rw [Ideal.dotGeneral_apply,
    ← Equiv.sum_comp (contrEquiv1 dot_S4x4096x8x8_S4x4096x8x64_S4x4096x8x64_3_2_2_3_01_01 8 rfl rfl).symm]
  refine Finset.sum_congr rfl fun j _ => ?_
  rw [lhsWV_idx, rhsWV_idx]

end Cert.ReferenceIdeal.RefValue

end
-- ==== Proof.RSoft.lean ====
/-
  The reference's weights read at an index: entry (i, j) at batch b, position s depends on the eight scores (i, ·) there only.
-/
import proofs.«162543_j4784593568285_1_alg».proof.Proof.RefDefs
import proofs.«162543_j4784593568285_1_alg».proof.Proof.AttnSpec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.AttnSpec

/-- The last axis of a [4, 4096, 8, 8] array can be reduced away, leaving [4, 4096, 8]. -/
private theorem red3 : S4x4096x8x8.Reduces [3] S4x4096x8 := by decide

/-- Putting coordinate k back on the reduced axis of (b, s, i) gives (b, s, i, k). -/
private theorem lift_ix3 (b : Fin 4) (s : Fin 4096) (i k : Fin 8) :
    red3.lift (ix3 b s i) k = ix4 b s i k := by
  funext e
  match e with
  | ⟨0, _⟩ => exact Fin.ext rfl
  | ⟨1, _⟩ => exact Fin.ext rfl
  | ⟨2, _⟩ => exact Fin.ext rfl
  | ⟨3, _⟩ => exact Fin.ext rfl

/-- A value per row spread back over the row: the two spreading steps [4, 4096, 8] → [4, 4096, 8, 1] → [4, 4096, 8, 8]
    read at (b, s, i, j) give the source at (b, s, i), whatever j is. -/
private theorem spread_apply (x : FVec Ideal S4x4096x8 .f32) (b : Fin 4) (s : Fin 4096) (i j : Fin 8) :
    broadcastInDim S4x4096x8x8 ![0, 1, 2, 3] bcast_S4x4096x8x1_S4x4096x8x8_0_1_2_3
      (broadcastInDim S4x4096x8x1 ![0, 1, 2] bcast_S4x4096x8_S4x4096x8x1_0_1_2 x) (ix4 b s i j) = x (ix3 b s i) := by
  rw [broadcastInDim_apply ![0, 1, 2, 3] bcast_S4x4096x8x1_S4x4096x8x8_0_1_2_3 _ (ix4 b s i j) (ix4 b s i (0 : Fin 1))
    (fun a => by match a with | ⟨0, _⟩ => rfl | ⟨1, _⟩ => rfl | ⟨2, _⟩ => rfl | ⟨3, _⟩ => rfl)]
  rw [broadcastInDim_apply ![0, 1, 2] bcast_S4x4096x8_S4x4096x8x1_0_1_2 x (ix4 b s i (0 : Fin 1)) (ix3 b s i)
    (fun a => by match a with | ⟨0, _⟩ => rfl | ⟨1, _⟩ => rfl | ⟨2, _⟩ => rfl)]

/-- The row maximum read at an index: the maximum from −∞ of the eight scores of row i at (b, s), taken once more
    against −∞. -/
theorem maxV_apply (sc : FVec Ideal S4x4096x8x8 .f32) (b : Fin 4) (s : Fin 4096) (i j : Fin 8) :
    maxV sc (ix4 b s i j) = rowMax (fun j' => sc (ix4 b s i j')) := by
  unfold maxV
  rw [spread_apply, maximumf_apply, Host.reduce_eq_fold_single _ _ _ _ red3]
  have hf : sc ∘ red3.lift (ix3 b s i) = fun j' => sc (ix4 b s i j') :=
    funext fun k => congrArg sc (lift_ix3 b s i k)
  rw [hf]
  rfl

/-- The shifted exponential read at an index. -/
theorem expV_apply (sc : FVec Ideal S4x4096x8x8 .f32) (b : Fin 4) (s : Fin 4096) (i j : Fin 8) :
    expV sc (ix4 b s i j) = rowExp (fun j' => sc (ix4 b s i j')) j := by
  show Ideal.exp (sc (ix4 b s i j) - maxV sc (ix4 b s i j)) = _
  rw [maxV_apply]
  rfl

/-- The row sum read at an index: the sum starts from the word 0, which is the number 0, so it is the plain sum over
    the row's eight entries. -/
theorem sumV_apply (ex : FVec Ideal S4x4096x8x8 .f32) (b : Fin 4) (s : Fin 4096) (i j : Fin 8) :
    sumV ex (ix4 b s i j) = ∑ j' : Fin 8, ex (ix4 b s i j') := by
  unfold sumV
  rw [spread_apply]
  show Ideal.hostReduceAdd reducesTo_S4x4096x8x8_S4x4096x8_d3 ex (Ideal.ofBits .f32 0x00000000#32) (ix3 b s i) = _
  rw [Ideal.hostReduceAdd_single _ red3, Ideal.ofBits_zero_f32, zero_add]
  exact Finset.sum_congr rfl fun k _ => congrArg ex (lift_ix3 b s i k)

/-- The replacement of non-finite values read at an index: each of its three steps chooses, element by element,
    between a scalar spread over the array (which reads that scalar everywhere) and the element itself. -/
theorem n2nV_apply (x : FVec Ideal S4x4096x8x8 .f32) (y : S4x4096x8x8.Idx) :
    n2nV x (constant (F := Ideal) S_ .f32 0x00000000#32) y = n2n (x y) := rfl

/-- Weight (i, j) at batch b, position s: the weight of entry j of the i-th row of scores there. -/
theorem weightsV_apply (sc : FVec Ideal S4x4096x8x8 .f32) (b : Fin 4) (s : Fin 4096) (i j : Fin 8) :
    weightsV sc (ix4 b s i j) = weight (fun j' => sc (ix4 b s i j')) j := by
  unfold weightsV
  rw [n2nV_apply]
  show n2n (Ideal.div (expV sc (ix4 b s i j)) (sumV (expV sc) (ix4 b s i j))) = _
  rw [sumV_apply, expV_apply]
  simp only [expV_apply]
  rfl

end Cert.ReferenceIdeal.RefValue

end
-- ==== Proof.RTab.lean ====
/-
  The two tables of positions, as numbers: every entry of either lies in 0 … 4095, and the forward table read at the
  backward table's entry t is t — the backward table is a right inverse of the forward one, so that reordering by the
  forward table and then by the backward one returns every position to its place. Checked entry by entry.
-/
import proofs.«162543_j4784593568285_1_alg».proof.ReferenceIdeal
import Idealize.ShloMosaic.Lib.Decide

namespace Cert.ReferenceIdeal.RefValue

open Cert.ReferenceIdeal

/-- Every entry of the forward table is a position. -/
theorem hil_lt : ∀ i : Fin 4096, (lit0 i).toNat < 4096 := by decide +kernel
/-- Every entry of the backward table is a position. -/
theorem inv_lt : ∀ i : Fin 4096, (lit1 i).toNat < 4096 := by decide +kernel
/-- The forward table at the backward table's entry t is t. -/
theorem hil_inv : ∀ t : Fin 4096, (lit0 ⟨(lit1 t).toNat % 4096, Nat.mod_lt _ (by decide)⟩).toNat = t.val := by decide +kernel

end Cert.ReferenceIdeal.RefValue
-- ==== Proof.RTake.lean ====
/-
  Taking positions along axis 1 at a table whose entries are all positions: the result at position s is the operand at
  position table[s]; no entry is out of range, so the fill value is never read.
-/
import proofs.«162543_j4784593568285_1_alg».proof.Proof.RefDefs
import proofs.«162543_j4784593568285_1_alg».proof.Proof.RTab
import proofs.«162543_j4784593568285_1_alg».proof.Proof.AttnSpec
import Idealize.ShloMosaic.Lib.ValueIdx
import Idealize.ShloMosaic.Lib.Pipeline.Value
import Idealize.ShloMosaic.Lib.ReduceAll
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Cert.AttnSpec
open Idealize.ShloMosaic.StableHlo.Predicate

/-! ## Words below 4096: non-negative as signed words, inside 0 … 4095, and their own clamp -/

/-- A word below 4096 is not below zero as a signed word. -/
private theorem word_slt_zero (w : BitVec 32) (hw : w.toNat < 4096) : IntOp.cmpi .slt w 0#32 = 0#1 := by
  refine eq_zero_of_ne_one fun h => ?_
  have := (slt_iff_toNat (a := w) (b := 0#32) (by omega) (by decide)).1 h
  simp at this

/-- A word below 4096 is at least zero as a signed word. -/
private theorem word_sge_zero (w : BitVec 32) (hw : w.toNat < 4096) : IntOp.cmpi .sge w 0#32 = 1#1 :=
  (sge_iff_toNat (a := w) (b := 0#32) (by omega) (by decide)).2 (by simp)

/-- A word below 4096 is at most 4095 as a signed word. -/
private theorem word_sle_last (w : BitVec 32) (hw : w.toNat < 4096) : IntOp.cmpi .sle w 4095#32 = 1#1 :=
  (sle_iff_toNat (a := w) (b := 4095#32) (by omega) (by decide)).2 (by simp; omega)

/-- A word below 4096, read signed and clamped into 0 … 4095, is its own value. -/
private theorem word_clamp (w : BitVec 32) (hw : w.toNat < 4096) : min w.toInt.toNat (4096 - 1) = w.toNat := by
  rw [toInt_eq_toNat_of_lt (by omega)]
  simp; omega

/-! ## The table as start indices, and the range mask -/

/-- No entry is negative, so wrapping the negative entries by 4096 changes nothing. -/
private theorem takeIdx_apply (tb : IVec S4096 32) (hlt : ∀ s : Fin 4096, (tb (ix1 s)).toNat < 4096) (s : Fin 4096) :
    takeIdx tb (ix1 s) = tb (ix1 s) := by
  show Scalar.select (IntOp.cmpi .slt (tb (ix1 s)) 0#32) _ (tb (ix1 s)) = tb (ix1 s)
  rw [word_slt_zero _ (hlt s), select_zero]

/-- The column of start indices at row s is the table's entry s. -/
private theorem takeCol_apply (tb : IVec S4096 32) (hlt : ∀ s : Fin 4096, (tb (ix1 s)).toNat < 4096) (s : Fin 4096)
    (z : Fin 1) : takeCol tb (ix2 s z) = tb (ix1 s) := by
  refine (broadcastInDim_apply _ _ _ (ix2 s z) (ix1 s) (fun a => ?_)).trans (takeIdx_apply tb hlt s)
  obtain rfl : a = 0 := Subsingleton.elim _ _
  rfl

/-- A left fold by "and" from 1 over ones is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Every entry is inside 0 … 4095, so the range mask is 1 at every position: the two compares are 1 at every element of
    the column, and an "and" over ones from 1 is 1. -/
private theorem takeMask_apply (tb : IVec S4096 32) (hlt : ∀ s : Fin 4096, (tb (ix1 s)).toNat < 4096) (j : S4096.Idx) :
    takeMask tb j = 1#1 := by
  unfold takeMask Host.reduce
  refine foldl_andi_ones _ (fun n => ?_) _
  generalize S4096x1.rowMajor.symm n = i
  obtain ⟨a, z, rfl⟩ : ∃ (a : Fin 4096) (z : Fin 1), i = ix2 a z := ⟨i 0, i 1, eq_ix2 i⟩
  show IntOp.andi (IntOp.cmpi .sge (takeCol tb (ix2 a z)) 0#32) (IntOp.cmpi .sle (takeCol tb (ix2 a z)) 4095#32) = 1#1
  rw [takeCol_apply tb hlt, word_sge_zero _ (hlt a), word_sle_last _ (hlt a)]
  rfl

/-! ## The gather read at an index

Offset axes 0, 2, 3 of the result read the operand's axes 0, 2, 3 whole (slice sizes 4, 16, 64); operand axis 1 is
collapsed (slice size 1) and is the one axis a start index names. So result element (b, s, h, d) is the operand at
(b, c, h, d), c the start index col[s, 0] read signed and clamped into 0 … 4095. -/

private theorem gather_apply (x : FVec Ideal S4x4096x16x64 .f32) (col : IVec S4096x1 32)
    (b : Fin 4) (s : Fin 4096) (h : Fin 16) (d : Fin 64) :
    Host.gather gather_S4x4096x16x64_S4096x1_S4x4096x16x64_023_1_n_n_1_1_411664 x col (ix4 b s h d)
      = x (ix4 b ⟨min (col (ix2 s 0)).toInt.toNat (4096 - 1), by omega⟩ h d) := by
  unfold Host.gather
  congr 1
  funext a
  refine Fin.ext ?_
  show GatherDims.start _ (ix4 b s h d) col a + GatherDims.batchCoord _ (ix4 b s h d) a + GatherDims.offCoord _ (ix4 b s h d) a = _
  -- no batching axes
  rw [GatherDims.batchCoord_eq_zero _ _ _ List.not_mem_nil, Nat.add_zero]
  match a with
  | ⟨0, _⟩ =>
    -- axis 0: not start-indexed; the first offset axis
    have hs : GatherDims.start gather_S4x4096x16x64_S4096x1_S4x4096x16x64_023_1_n_n_1_1_411664 (ix4 b s h d) col ⟨0, by decide⟩ = 0 := by
      unfold GatherDims.start; exact dif_neg (by decide)
    have ho : GatherDims.offCoord gather_S4x4096x16x64_S4096x1_S4x4096x16x64_023_1_n_n_1_1_411664 (ix4 b s h d) ⟨0, by decide⟩ = b.val := by
      unfold GatherDims.offCoord; rw [dif_pos (by decide)]; rfl
    rw [hs, ho, Nat.zero_add]
  | ⟨1, _⟩ =>
    -- axis 1: collapsed, so no offset; its start is the clamped start index, read at [s, 0]
    have ho : GatherDims.offCoord gather_S4x4096x16x64_S4096x1_S4x4096x16x64_023_1_n_n_1_1_411664 (ix4 b s h d) ⟨1, by decide⟩ = 0 := by
      unfold GatherDims.offCoord; exact dif_neg (by decide)
    have hs : GatherDims.start gather_S4x4096x16x64_S4096x1_S4x4096x16x64_023_1_n_n_1_1_411664 (ix4 b s h d) col ⟨1, by decide⟩ = min (col (ix2 s 0)).toInt.toNat (4096 - 1) := by
      unfold GatherDims.start
      rw [dif_pos (by decide)]
      have hsi : GatherDims.siIdx gather_S4x4096x16x64_S4096x1_S4x4096x16x64_023_1_n_n_1_1_411664 (ix4 b s h d) ⟨List.idxOf (⟨1, by decide⟩ : Fin 4) (GatherDims.startIndexMap gather_S4x4096x16x64_S4096x1_S4x4096x16x64_023_1_n_n_1_1_411664),
          List.idxOf_lt_length_iff.2 (by decide)⟩ = ix2 s 0 := by
        funext c; refine Fin.ext ?_
        match c with
        | ⟨0, _⟩ => rfl
        | ⟨1, _⟩ => rfl
      rw [hsi]
      rfl
    rw [hs, ho, Nat.add_zero]
  | ⟨2, _⟩ =>
    -- axis 2: not start-indexed; the second offset axis
    have hs : GatherDims.start gather_S4x4096x16x64_S4096x1_S4x4096x16x64_023_1_n_n_1_1_411664 (ix4 b s h d) col ⟨2, by decide⟩ = 0 := by
      unfold GatherDims.start; exact dif_neg (by decide)
    have ho : GatherDims.offCoord gather_S4x4096x16x64_S4096x1_S4x4096x16x64_023_1_n_n_1_1_411664 (ix4 b s h d) ⟨2, by decide⟩ = h.val := by
      unfold GatherDims.offCoord; rw [dif_pos (by decide)]; rfl
    rw [hs, ho, Nat.zero_add]
  | ⟨3, _⟩ =>
    -- axis 3: not start-indexed; the third offset axis
    have hs : GatherDims.start gather_S4x4096x16x64_S4096x1_S4x4096x16x64_023_1_n_n_1_1_411664 (ix4 b s h d) col ⟨3, by decide⟩ = 0 := by
      unfold GatherDims.start; exact dif_neg (by decide)
    have ho : GatherDims.offCoord gather_S4x4096x16x64_S4096x1_S4x4096x16x64_023_1_n_n_1_1_411664 (ix4 b s h d) ⟨3, by decide⟩ = d.val := by
      unfold GatherDims.offCoord; rw [dif_pos (by decide)]; rfl
    rw [hs, ho, Nat.zero_add]

/-! ## The take -/

/-- The take at a table all of whose entries are below 4096, read at an index. -/
theorem takeV_apply (x : FVec Ideal S4x4096x16x64 .f32) (tb : IVec S4096 32) (hlt : ∀ s : Fin 4096, (tb (ix1 s)).toNat < 4096)
    (b : Fin 4) (s : Fin 4096) (h : Fin 16) (d : Fin 64) :
    takeV x tb (ix4 b s h d) = x (ix4 b ⟨(tb (ix1 s)).toNat, hlt s⟩ h d) := by
  show Scalar.select (broadcastInDim S4x4096x16x64 ![1] bcast_S4096_S4x4096x16x64_1 (takeMask tb) (ix4 b s h d))
      (Host.gather gather_S4x4096x16x64_S4096x1_S4x4096x16x64_023_1_n_n_1_1_411664 x (takeCol tb) (ix4 b s h d)) _ = _
  -- the mask is 1, so the select takes the gathered value
  have hm : broadcastInDim S4x4096x16x64 ![1] bcast_S4096_S4x4096x16x64_1 (takeMask tb) (ix4 b s h d) = 1#1 :=
    takeMask_apply tb hlt _
  rw [hm, select_one, gather_apply]
  -- the clamped start index is the table's entry
  have hc : min (takeCol tb (ix2 s 0)).toInt.toNat (4096 - 1) = (tb (ix1 s)).toNat := by
    rw [takeCol_apply tb hlt, word_clamp _ (hlt s)]
  exact congrArg (fun p : Fin 4096 => x (ix4 b p h d)) (Fin.ext hc)

/-- The forward table at position s is the first constant's entry s. -/
theorem hilT_apply (s : Fin 4096) : hilT (ix1 s) = lit0 s :=
  congrArg lit0 (Fin.ext (Shape.rowMajor_val_one (ix1 s)))

/-- The backward table at position s is the second constant's entry s. -/
theorem invT_apply (s : Fin 4096) : invT (ix1 s) = lit1 s :=
  congrArg lit1 (Fin.ext (Shape.rowMajor_val_one (ix1 s)))

/-- The take at the forward table. -/
theorem takeV_hil_apply (x : FVec Ideal S4x4096x16x64 .f32) (b : Fin 4) (s : Fin 4096) (h : Fin 16) (d : Fin 64) :
    takeV x hilT (ix4 b s h d) = x (ix4 b ⟨(lit0 s).toNat, hil_lt s⟩ h d) := by
  rw [takeV_apply x hilT (fun s => by rw [hilT_apply]; exact hil_lt s)]
  exact congrArg (fun p : Fin 4096 => x (ix4 b p h d)) (Fin.ext (congrArg BitVec.toNat (hilT_apply s)))

/-- The take at the backward table. -/
theorem takeV_inv_apply (x : FVec Ideal S4x4096x16x64 .f32) (b : Fin 4) (s : Fin 4096) (h : Fin 16) (d : Fin 64) :
    takeV x invT (ix4 b s h d) = x (ix4 b ⟨(lit1 s).toNat, inv_lt s⟩ h d) := by
  rw [takeV_apply x invT (fun s => by rw [invT_apply]; exact inv_lt s)]
  exact congrArg (fun p : Fin 4096 => x (ix4 b p h d)) (Fin.ext (congrArg BitVec.toNat (invT_apply s)))

end Cert.ReferenceIdeal.RefValue

end
-- ==== Proof.RVal.lean ====
/-
  The reference's result is the attention of its arguments: a group's attention at an index, the two groups side by
  side, and the two reorderings of positions cancelling because nothing mixes two positions.
-/
import proofs.«162543_j4784593568285_1_alg».proof.Proof.RDots
import proofs.«162543_j4784593568285_1_alg».proof.Proof.RSoft
import proofs.«162543_j4784593568285_1_alg».proof.Proof.RTake
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.AttnSpec

/-- One group's attention read at an index. -/
theorem headsV_apply (qs ks vs : FVec Ideal S4x4096x8x64 .f32) (b : Fin 4) (s : Fin 4096) (i : Fin 8) (d : Fin 64) :
    headsV qs ks vs (ix4 b s i d)
      = headAttn (fun i' e => qs (ix4 b s i' e)) (fun j e => ks (ix4 b s j e)) (fun j e => vs (ix4 b s j e)) i d := by
  -- the row of scores the weights are taken of is the specification's row
  have hrow : (fun j' => scoresV qs ks (ix4 b s i j'))
      = score (fun i' e => qs (ix4 b s i' e)) (fun j' e => ks (ix4 b s j' e)) i :=
    funext fun j' => scoresV_apply qs ks b s i j'
  unfold headsV
  rw [dotWV_apply]
  unfold headAttn
  refine Finset.sum_congr rfl fun j _ => ?_
  rw [weightsV_apply, hrow]

/-- The first group's heads of an array at an index: head i of the group is head i of the array. -/
theorem sliceLo_apply (x : FVec Ideal S4x4096x16x64 .f32) (b : Fin 4) (s : Fin 4096) (i : Fin 8) (e : Fin 64) :
    sliceLo x (ix4 b s i e) = x (ix4 b s (lo8 i) e) := by
  unfold sliceLo
  refine extractStridedSlice_apply _ x _ (ix4 b s i e) (ix4 b s (lo8 i) e) fun a => ?_
  match a with
  | ⟨0, _⟩ => show b.val = 0 + b.val; omega
  | ⟨1, _⟩ => show s.val = 0 + s.val; omega
  | ⟨2, _⟩ => show i.val = 0 + i.val; omega
  | ⟨3, _⟩ => show e.val = 0 + e.val; omega

/-- The second group's heads of an array at an index: head i of the group is head i + 8 of the array. -/
theorem sliceHi_apply (x : FVec Ideal S4x4096x16x64 .f32) (b : Fin 4) (s : Fin 4096) (i : Fin 8) (e : Fin 64) :
    sliceHi x (ix4 b s i e) = x (ix4 b s (hi8 i) e) := by
  unfold sliceHi
  refine extractStridedSlice_apply _ x _ (ix4 b s i e) (ix4 b s (hi8 i) e) fun a => ?_
  match a with
  | ⟨0, _⟩ => show b.val = 0 + b.val; omega
  | ⟨1, _⟩ => show s.val = 0 + s.val; omega
  | ⟨2, _⟩ => show i.val + 8 = 8 + i.val; omega
  | ⟨3, _⟩ => show e.val = 0 + e.val; omega

/-- Both groups side by side: position s of batch b holds the attention of that position's sixteen heads. -/
theorem mixV_apply (q k v : FVec Ideal S4x4096x16x64 .f32) (b : Fin 4) (s : Fin 4096) (h : Fin 16) (d : Fin 64) :
    mixV q k v (ix4 b s h d)
      = posAttn (fun h' e => q (ix4 b s h' e)) (fun h' e => k (ix4 b s h' e)) (fun h' e => v (ix4 b s h' e)) h d := by
  unfold mixV
  rcases head_cases h with ⟨i, rfl⟩ | ⟨i, rfl⟩
  · -- a head of the first group is read from the first piece
    refine (concatenate_pair_apply_left (t := S4x4096x16x64) (s₁ := S4x4096x8x64) (s₂ := S4x4096x8x64) _ _ _ _
      (ix4 b s (lo8 i) d) rfl (ix4 b s i d) fun a => ?_).trans ?_
    · match a with
      | ⟨0, _⟩ => rfl
      | ⟨1, _⟩ => rfl
      | ⟨2, _⟩ => rfl
      | ⟨3, _⟩ => rfl
    · rw [headsV_apply, posAttn_lo8]
      simp only [sliceLo_apply]
  · -- a head of the second group is read from the second piece, eight heads earlier
    refine (concatenate_pair_apply_right (t := S4x4096x16x64) (s₁ := S4x4096x8x64) (s₂ := S4x4096x8x64) _ _ _ _
      (ix4 b s (hi8 i) d) rfl rfl (ix4 b s i d) (fun a => ?_) ?_).trans ?_
    · match a with
      | ⟨0, _⟩ => exact fun _ => rfl
      | ⟨1, _⟩ => exact fun _ => rfl
      | ⟨2, _⟩ => exact fun hne => absurd (Fin.ext rfl) hne
      | ⟨3, _⟩ => exact fun _ => rfl
    · show i.val + 8 = i.val + 8
      rfl
    · rw [headsV_apply, posAttn_hi8]
      simp only [sliceHi_apply]

/-- The reference's composed term is the attention of its arguments. -/
theorem refVal_eq (q k v : FVec Ideal S4x4096x16x64 .f32) : refVal q k v = attn q k v := by
  -- reordering by the forward table and then by the backward one returns every position to its place
  have key : ∀ t : Fin 4096, (⟨(lit0 ⟨(lit1 t).toNat, inv_lt t⟩).toNat, hil_lt _⟩ : Fin 4096) = t := fun t => Fin.ext (by
    have e : (⟨(lit1 t).toNat % 4096, Nat.mod_lt _ (by decide)⟩ : Fin 4096) = ⟨(lit1 t).toNat, inv_lt t⟩ :=
      Fin.ext (Nat.mod_eq_of_lt (inv_lt t))
    have h := hil_inv t
    rw [e] at h
    exact h)
  funext y
  obtain ⟨b, s, h, d, rfl⟩ : ∃ b s h d, y = ix4 b s h d := ⟨_, _, _, _, eq_ix4 y⟩
  rw [attn_apply]
  unfold refVal attnAt
  rw [takeV_inv_apply, mixV_apply]
  simp only [takeV_hil_apply, key]

end Cert.ReferenceIdeal.RefValue

end
-- ==== Proof.lean ====
/-
  A kernel that computes, at every sequence position by itself, the attention of that position's sixteen heads among
  themselves (two groups of eight) — against a reference that first reorders the positions by a fixed table, computes the
  same per-position attention, and reorders back by the table's inverse. Because the attention of a position reads that
  position only, the two reorderings cancel; the table facts this needs (every entry a position, the second table a right
  inverse of the first) are checked entry by entry. The kernel tiles the flattened (batch, position) axis in blocks of 256
  rows; its matrix products, row maxima and row sums are, over the extended reals, the reference's.
-/
import proofs.«162543_j4784593568285_1_alg».proof.Defs
import proofs.«162543_j4784593568285_1_alg».proof.Proof.Gen.Kernel
import proofs.«162543_j4784593568285_1_alg».proof.Proof.Gen.Kernel.Skeleton
import proofs.«162543_j4784593568285_1_alg».proof.Proof.Gen.Kernel.Launch
import proofs.«162543_j4784593568285_1_alg».proof.Proof.Gen.Kernel.Points
import proofs.«162543_j4784593568285_1_alg».proof.Proof.Gen.Kernel.Frame
import proofs.«162543_j4784593568285_1_alg».proof.Proof.Gen.KernelIdeal
import proofs.«162543_j4784593568285_1_alg».proof.Proof.Gen.KernelIdeal.Skeleton
import proofs.«162543_j4784593568285_1_alg».proof.Proof.Gen.KernelIdeal.Launch
import proofs.«162543_j4784593568285_1_alg».proof.Proof.Gen.KernelIdeal.Points
import proofs.«162543_j4784593568285_1_alg».proof.Proof.Gen.KernelIdeal.Frame
import proofs.«162543_j4784593568285_1_alg».proof.Proof.Gen.ReferenceIdeal
import proofs.«162543_j4784593568285_1_alg».proof.Proof.Gen.Pre_finite_inputs
import proofs.«162543_j4784593568285_1_alg».proof.Proof.KArr
import proofs.«162543_j4784593568285_1_alg».proof.Proof.RRun
import proofs.«162543_j4784593568285_1_alg».proof.Proof.RVal
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- Both idealized programs end with the attention of the arguments: the kernel by its blocks, the reference because the
    two reorderings of positions cancel. -/
theorem algebraic : Cert.algebraic_KernelIdeal_ReferenceIdeal := by
  intro m ρ m' ρ' _ hagree
  refine ⟨fun c => Cert.AttnSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KVal.kernel_run m ρ, ?_⟩
  refine (θ_run Cert.ReferenceIdeal.defs _ _).mono (fun _ h c => ⟨(h c).1.trans ?_, (h c).2⟩)
    (Cert.ReferenceIdeal.RefValue.ref_run m' ρ')
  rw [Cert.ReferenceIdeal.RefValue.refVal_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
